-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x128 : Shape := ⟨2, ![1024, 128]⟩
abbrev S128x256 : Shape := ⟨2, ![128, 256]⟩
abbrev S256 : Shape := ⟨1, ![256]⟩
abbrev S256x256 : Shape := ⟨2, ![256, 256]⟩
abbrev S256x128 : Shape := ⟨2, ![256, 128]⟩
abbrev S128 : Shape := ⟨1, ![128]⟩
abbrev S_ : Shape := ⟨0, ![]⟩

class Facts : Prop where
  bcast_S_S1024x128 : S_.BroadcastsInDim S1024x128 (![] : Fin 0 → Fin S1024x128.rank)
  reducesTo_S1024x128_S_d0_1 : S1024x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part3 {F : FTy → Type} [FloatOps F] (main_arg11 : FVec F S128 .f32) (main_arg12 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg11
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg12
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  main_v63

def fn_part2 {F : FTy → Type} [FloatOps F] (main_arg7 : FVec F S256x256 .f32) (main_arg8 : FVec F S256 .f32) (main_arg9 : FVec F S256x128 .f32) (main_arg10 : FVec F S128 .f32) (main_arg11 : FVec F S128 .f32) (main_arg12 : FVec F S128 .f32) (main_v33 : IVec S_ 1) : IVec S_ 1 :=
  let main_v34 : FVec F S256x256 .f32 := Host.absf main_arg7
  let main_cst_12 : FVec F S_ .f32 := constant S_ .f32 0x7F800000#32
  let main_v35 : FVec F S256x256 .f32 := broadcastInDim S256x256 ![] bcast_S_S256x256 main_cst_12
  let main_v36 : IVec S256x256 1 := cmpf .olt main_v34 main_v35
  let main_c_13 : IVec S_ 1 := constantI S_ 1 1#1
  let main_v37 : IVec S_ 1 := (fun x v => Host.reduce IntOp.andi x v reducesTo_S256x256_S_d0_1 h_S_) main_v36 main_c_13
  let main_v38 : IVec S_ 1 := andi main_v33 main_v37
  let main_v39 : FVec F S256 .f32 := Host.absf main_arg8
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256x128 .f32 := Host.absf main_arg9
  let main_cst_16 : FVec F S_ .f32 := constant S_ .f32 0x7F800000#32
  let main_v45 : FVec F S256x128 .f32 := broadcastInDim S256x128 ![] bcast_S_S256x128 main_cst_16
  let main_v46 : IVec S256x128 1 := cmpf .olt main_v44 main_v45
  let main_c_17 : IVec S_ 1 := constantI S_ 1 1#1
  let main_v47 : IVec S_ 1 := (fun x v => Host.reduce IntOp.andi x v reducesTo_S256x128_S_d0_1 h_S_) main_v46 main_c_17
  let main_v48 : IVec S_ 1 := andi main_v43 main_v47
  let main_v49 : FVec F S128 .f32 := Host.absf main_arg10
  let main_cst_18 : FVec F S_ .f32 := constant S_ .f32 0x7F800000#32
  let main_v50 : FVec F S128 .f32 := broadcastInDim S128 ![] bcast_S_S128 main_cst_18
  fn_part3 (F := F) main_arg11 main_arg12 main_v48 main_v49 main_v50

def fn_part1 {F : FTy → Type} [FloatOps F] (main_arg4 : FVec F S256 .f32) (main_arg5 : FVec F S256 .f32) (main_arg6 : FVec F S256 .f32) (main_arg7 : FVec F S256x256 .f32) (main_arg8 : FVec F S256 .f32) (main_arg9 : FVec F S256x128 .f32) (main_arg10 : FVec F S128 .f32) (main_arg11 : FVec F S128 .f32) (main_arg12 : FVec F S128 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S1024x128 .f32) (main_arg1 : FVec F S128x256 .f32) (main_arg2 : FVec F S256 .f32) (main_arg3 : FVec F S256x256 .f32) (main_arg4 : FVec F S256 .f32) (main_arg5 : FVec F S256 .f32) (main_arg6 : FVec F S256 .f32) (main_arg7 : FVec F S256x256 .f32) (main_arg8 : FVec F S256 .f32) (main_arg9 : FVec F S256x128 .f32) (main_arg10 : FVec F S128 .f32) (main_arg11 : FVec F S128 .f32) (main_arg12 : FVec F S128 .f32) : IVec S_ 1 :=
  let main_v0 : FVec F S1024x128 .f32 := Host.absf main_arg0
  let main_cst : FVec F S_ .f32 := constant S_ .f32 0x7F800000#32
  let main_v1 : FVec F S1024x128 .f32 := broadcastInDim S1024x128 ![] bcast_S_S1024x128 main_cst
  let main_v2 : IVec S1024x128 1 := cmpf .olt main_v0 main_v1
  let main_c : IVec S_ 1 := constantI S_ 1 1#1
  let main_v3 : IVec S_ 1 := (fun x v => Host.reduce IntOp.andi x v reducesTo_S1024x128_S_d0_1 h_S_) main_v2 main_c
  let main_v4 : FVec F S128x256 .f32 := Host.absf main_arg1
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg4 main_arg5 main_arg6 main_arg7 main_arg8 main_arg9 main_arg10 main_arg11 main_arg12 main_v13 main_v16
-- ==== Kernel.lean ====
abbrev S1024x128 : Shape := ⟨2, ![1024, 128]⟩
abbrev S128x256 : Shape := ⟨2, ![128, 256]⟩
abbrev S256 : Shape := ⟨1, ![256]⟩
abbrev S256x256 : Shape := ⟨2, ![256, 256]⟩
abbrev S256x128 : Shape := ⟨2, ![256, 128]⟩
abbrev S128 : Shape := ⟨1, ![128]⟩
abbrev S1024x1 : Shape := ⟨2, ![1024, 1]⟩
abbrev S1x128 : Shape := ⟨2, ![1, 128]⟩
abbrev S1024x256 : Shape := ⟨2, ![1024, 256]⟩
abbrev S1x256 : Shape := ⟨2, ![1, 256]⟩

abbrev nBuf : Space → Nat
  | .hbm => 14
  | .vmem => 14
  | .smem => 0
  | _ => 0

abbrev bufTy : (tb : Table) → Fin (tcTables nBuf tb) → BufTy
  | .hbm, ⟨0, _⟩ => ⟨S1024x128, .f32⟩
  | .hbm, ⟨1, _⟩ => ⟨S128x256, .f32⟩
  | .hbm, ⟨2, _⟩ => ⟨S256, .f32⟩
  | .hbm, ⟨3, _⟩ => ⟨S256x256, .f32⟩
  | .hbm, ⟨4, _⟩ => ⟨S256, .f32⟩
  | .hbm, ⟨5, _⟩ => ⟨S256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S256x128, .f32⟩
  | .hbm, ⟨10, _⟩ => ⟨S128, .f32⟩
  | .hbm, ⟨11, _⟩ => ⟨S128, .f32⟩
  | .hbm, ⟨12, _⟩ => ⟨S128, .f32⟩
  | .hbm, ⟨13, _⟩ => ⟨S128, .f32⟩
  | .local _ .vmem, ⟨0, _⟩ => ⟨S1024x128, .f32⟩
  | .local _ .vmem, ⟨1, _⟩ => ⟨S128x256, .f32⟩
  | .local _ .vmem, ⟨2, _⟩ => ⟨S256, .f32⟩
  | .local _ .vmem, ⟨3, _⟩ => ⟨S256x256, .f32⟩
  | .local _ .vmem, ⟨4, _⟩ => ⟨S256, .f32⟩
  | .local _ .vmem, ⟨5, _⟩ => ⟨S256, .f32⟩
  | .local _ .vmem, ⟨6, _⟩ => ⟨S256, .f32⟩
  | .local _ .vmem, ⟨7, _⟩ => ⟨S256x256, .f32⟩
  | .local _ .vmem, ⟨8, _⟩ => ⟨S256, .f32⟩
  | .local _ .vmem, ⟨9, _⟩ => ⟨S256x128, .f32⟩
  | .local _ .vmem, ⟨10, _⟩ => ⟨S128, .f32⟩
  | .local _ .vmem, ⟨11, _⟩ => ⟨S128, .f32⟩
  | .local _ .vmem, ⟨12, _⟩ => ⟨S128, .f32⟩
  | .local _ .vmem, ⟨13, _⟩ => ⟨S128, .f32⟩
  | _, _ => ⟨S1024x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 1 → Nat :=
  let arg0 : BitVec 32 := BitVec.ofNat 32 (i 0).val
  let c0_i32 : BitVec 32 := 0#32
  let c0_i32_0 : BitVec 32 := 0#32
  ![c0_i32.toNat]

abbrev stage0_0 : Fin 1 → Memref sig .tc .vmem S1024x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

class Facts₀ : Prop where
  inb_S1024x128_S1024x128_0_0 : ∀ a, (![0, 0] : Fin 2 → Nat) a + S1024x128.size a ≤ S1024x128.size a
  h_S1024x128 : 0 < S1024x128.numel
  iota_S1024x1_d0_w32 : S1024x1.Iotas .tc 32 [0]
  natLt_1_32 : 1 < 32
  reduces_S1024x128_S128 : S1024x128.Reduces [0] S128
  shapeCasts_S128_S1x128 : S128.ShapeCasts S1x128
  broadcasts_S1024x1_S1024x128 : S1024x1.Broadcasts S1024x128
  broadcasts_S1x128_S1024x128 : S1x128.Broadcasts S1024x128
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S256_S256_0 : ∀ a, (![0] : Fin 1 → Nat) a + S256.size a ≤ S256.size a
  h_S256 : 0 < S256.numel
  shapeCasts_S256_S1x256 : S256.ShapeCasts S1x256
  broadcasts_S1x256_S1024x256 : S1x256.Broadcasts S1024x256
  inb_S256x256_S256x256_0_0 : ∀ a, (![0, 0] : Fin 2 → Nat) a + S256x256.size a ≤ S256x256.size a
  h_S256x256 : 0 < S256x256.numel
  reduces_S1024x256_S256 : S1024x256.Reduces [0] S256
  broadcasts_S1024x1_S1024x256 : S1024x1.Broadcasts S1024x256
  inb_S256x128_S256x128_0_0 : ∀ a, (![0, 0] : Fin 2 → Nat) a + S256x128.size a ≤ S256x128.size a
  h_S256x128 : 0 < S256x128.numel
  inb_S128_S128_0 : ∀ a, (![0] : Fin 1 → Nat) a + S128.size a ≤ S128.size a
  h_S128 : 0 < S128.numel
  dot_S1024x128_S128x256_S1024x256_1_0_0_1_n_n_wf : DotDims.WF S1024x128 S128x256 S1024x256 [1] [0] [0] [1] [] []
  dot_S1024x256_S256x256_S1024x256_1_0_0_1_n_n_wf : DotDims.WF S1024x256 S256x256 S1024x256 [1] [0] [0] [1] [] []
  dot_S1024x256_S256x128_S1024x128_1_0_0_1_n_n_wf : DotDims.WF S1024x256 S256x128 S1024x128 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S1024x128.size a
  hwx0_0 : ∀ i : grid0.Coords, EltTy.bits .f32 = 32 ∨ (Rect.block (s := S1024x128) S1024x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S256.size a
  hwx0_2 : ∀ i : grid0.Coords, EltTy.bits .f32 = 32 ∨ (Rect.block (s := S256) S256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S256.size a
  hwx0_4 : ∀ i : grid0.Coords, EltTy.bits .f32 = 32 ∨ (Rect.block (s := S256) S256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256.size a ≤ S256.size a
  hwx0_5 : ∀ i : grid0.Coords, EltTy.bits .f32 = 32 ∨ (Rect.block (s := S256) S256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256.size a ≤ S256.size a
  hwx0_6 : ∀ i : grid0.Coords, EltTy.bits .f32 = 32 ∨ (Rect.block (s := S256) S256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x256.size a ≤ S256x256.size a
  hwx0_7 : ∀ i : grid0.Coords, EltTy.bits .f32 = 32 ∨ (Rect.block (s := S256x256) S256x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256.size a ≤ S256.size a
  hwx0_8 : ∀ i : grid0.Coords, EltTy.bits .f32 = 32 ∨ (Rect.block (s := S256) S256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S256x128.size a ≤ S256x128.size a
  hwx0_9 : ∀ i : grid0.Coords, EltTy.bits .f32 = 32 ∨ (Rect.block (s := S256x128) S256x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S128.size a ≤ S128.size a
  hwx0_10 : ∀ i : grid0.Coords, EltTy.bits .f32 = 32 ∨ (Rect.block (s := S128) S128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S128.size a ≤ S128.size a
  hwx0_11 : ∀ i : grid0.Coords, EltTy.bits .f32 = 32 ∨ (Rect.block (s := S128) S128.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S128.size a ≤ S128.size a
  hwx0_12 : ∀ i : grid0.Coords, EltTy.bits .f32 = 32 ∨ (Rect.block (s := S128) S128.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S128.size a ≤ S128.size a
  hwx0_13 : ∀ i : grid0.Coords, EltTy.bits .f32 = 32 ∨ (Rect.block (s := S128) S128.size (cc0_transform_13 i) (hinb0_13 i)).WholeWords (EltTy.packing .f32)

variable [Facts₀]

def dot_S1024x128_S128x256_S1024x256_1_0_0_1_n_n : DotDims S1024x128 S128x256 S1024x256 where
  lhsContracting := [1]
  rhsContracting := [0]
  lhsNonContracting := [0]
  rhsNonContracting := [1]
  lhsBatch := []
  rhsBatch := []
  wf := dot_S1024x128_S128x256_S1024x256_1_0_0_1_n_n_wf
def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf
def dot_S1024x256_S256x128_S1024x128_1_0_0_1_n_n : DotDims S1024x256 S256x128 S1024x128 where
  lhsContracting := [1]
  rhsContracting := [0]
  lhsNonContracting := [0]
  rhsNonContracting := [1]
  lhsBatch := []
  rhsBatch := []
  wf := dot_S1024x256_S256x128_S1024x128_1_0_0_1_n_n_wf

abbrev win0_0 : Pipeline.Window sig grid0 :=
  Pipeline.Window.ofSpec (Memref.whole main_arg0) S1024x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S256x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S256x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg11) S128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg12) S128.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v0) S128.size cc0_transform_13 reads0_13 true true 1 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

class Facts : Prop extends Facts₀ where

variable [Facts]
-- ==== ReferenceIdeal.lean ====
abbrev S1024x128 : Shape := ⟨2, ![1024, 128]⟩
abbrev S128x256 : Shape := ⟨2, ![128, 256]⟩
abbrev S256 : Shape := ⟨1, ![256]⟩
abbrev S256x256 : Shape := ⟨2, ![256, 256]⟩
abbrev S256x128 : Shape := ⟨2, ![256, 128]⟩
abbrev S128 : Shape := ⟨1, ![128]⟩
abbrev S1024 : Shape := ⟨1, ![1024]⟩
abbrev S1024x1023 : Shape := ⟨2, ![1024, 1023]⟩
abbrev S1047552 : Shape := ⟨1, ![1047552]⟩
abbrev S1023 : Shape := ⟨1, ![1023]⟩
abbrev S_ : Shape := ⟨0, ![]⟩
abbrev S1x1023 : Shape := ⟨2, ![1, 1023]⟩
abbrev S1047552x1 : Shape := ⟨2, ![1047552, 1]⟩
abbrev S1047552x128 : Shape := ⟨2, ![1047552, 128]⟩
abbrev S1024x256 : Shape := ⟨2, ![1024, 256]⟩
abbrev S1x256 : Shape := ⟨2, ![1, 256]⟩
abbrev S1047552x256 : Shape := ⟨2, ![1047552, 256]⟩
abbrev S1x128 : Shape := ⟨2, ![1, 128]⟩

abbrev nBuf : Space → Nat
  | .hbm => 169
  | .vmem => 0
  | .smem => 0
  | _ => 0

abbrev hbmTy0_0 (i : Nat) : BufTy := match i % 128 with
  | 0 => ⟨S1024x128, .f32⟩
  | 1 => ⟨S128x256, .f32⟩
  | 2 => ⟨S256, .f32⟩
  | 3 => ⟨S256x256, .f32⟩
  | 4 => ⟨S256, .f32⟩
  | 5 => ⟨S256, .f32⟩
  | 6 => ⟨S256, .f32⟩
  | 7 => ⟨S256x256, .f32⟩
  | 8 => ⟨S256, .f32⟩
  | 9 => ⟨S256x128, .f32⟩
  | 10 => ⟨S128, .f32⟩
  | 11 => ⟨S128, .f32⟩
  | 12 => ⟨S128, .f32⟩
  | 13 => ⟨S1024, .i32⟩
  | 14 => ⟨S1024x1023, .i32⟩
  | 15 => ⟨S1047552, .i32⟩
  | 16 => ⟨S1023, .i32⟩
  | 17 => ⟨S_, .i32⟩
  | 18 => ⟨S1023, .i32⟩
  | 19 => ⟨S1023, .i32⟩
  | 20 => ⟨S1x1023, .i32⟩
  | 21 => ⟨S1024x1023, .i32⟩
  | 22 => ⟨S1047552, .i32⟩
  | 23 => ⟨S_, .i32⟩
  | 24 => ⟨S1047552, .i32⟩
  | 25 => ⟨S1047552, .i1⟩
  | 26 => ⟨S_, .i32⟩
  | 27 => ⟨S1047552, .i32⟩
  | 28 => ⟨S1047552, .i32⟩
  | 29 => ⟨S1047552, .i32⟩
  | 30 => ⟨S1047552x1, .i32⟩
  | 31 => ⟨S1047552x128, .f32⟩
  | 32 => ⟨S_, .f32⟩
  | 33 => ⟨S1024x128, .f32⟩
  | 34 => ⟨S1047552x1, .i32⟩
  | 35 => ⟨S1024x128, .f32⟩
  | 36 => ⟨S1024x128, .f32⟩
  | 37 => ⟨S1024x256, .f32⟩
  | 38 => ⟨S1x256, .f32⟩
  | 39 => ⟨S1024x256, .f32⟩
  | 40 => ⟨S1024x256, .f32⟩
  | 41 => ⟨S_, .f32⟩
  | 42 => ⟨S1024x256, .f32⟩
  | 43 => ⟨S1024x256, .f32⟩
  | 44 => ⟨S1024x256, .f32⟩
  | 45 => ⟨S1x256, .f32⟩
  | 46 => ⟨S1024x256, .f32⟩
  | 47 => ⟨S1024x256, .f32⟩
  | 48 => ⟨S_, .f32⟩
  | 49 => ⟨S1024x256, .f32⟩
  | 50 => ⟨S1024x256, .f32⟩
  | 51 => ⟨S_, .f32⟩
  | 52 => ⟨S256, .f32⟩
  | 53 => ⟨S_, .f32⟩
  | 54 => ⟨S256, .f32⟩
  | 55 => ⟨S256, .f32⟩
  | 56 => ⟨S_, .i32⟩
  | 57 => ⟨S_, .f32⟩
  | 58 => ⟨S256, .f32⟩
  | 59 => ⟨S1x256, .f32⟩
  | 60 => ⟨S_, .f32⟩
  | 61 => ⟨S1x256, .f32⟩
  | 62 => ⟨S1x256, .f32⟩
  | 63 => ⟨S1024x256, .f32⟩
  | 64 => ⟨S1024x256, .f32⟩
  | 65 => ⟨S1024x256, .f32⟩
  | 66 => ⟨S_, .f32⟩
  | 67 => ⟨S_, .f32⟩
  | 68 => ⟨S_, .f32⟩
  | 69 => ⟨S_, .f32⟩
  | 70 => ⟨S256, .f32⟩
  | 71 => ⟨S256, .f32⟩
  | 72 => ⟨S256, .f32⟩
  | 73 => ⟨S_, .f32⟩
  | 74 => ⟨S_, .i1⟩
  | 75 => ⟨S_, .f32⟩
  | 76 => ⟨S_, .f32⟩
  | 77 => ⟨S256, .f32⟩
  | 78 => ⟨S256, .f32⟩
  | 79 => ⟨S1x256, .f32⟩
  | 80 => ⟨S1024x256, .f32⟩
  | 81 => ⟨S1024x256, .f32⟩
  | 82 => ⟨S_, .f32⟩
  | 83 => ⟨S256, .f32⟩
  | 84 => ⟨S256, .f32⟩
  | 85 => ⟨S256, .f32⟩
  | 86 => ⟨S1x256, .f32⟩
  | 87 => ⟨S1024x256, .f32⟩
  | 88 => ⟨S1024x256, .f32⟩
  | 89 => ⟨S1x256, .f32⟩
  | 90 => ⟨S1024x256, .f32⟩
  | 91 => ⟨S1024x256, .f32⟩
  | 92 => ⟨S1x256, .f32⟩
  | 93 => ⟨S1024x256, .f32⟩
  | 94 => ⟨S1024x256, .f32⟩
  | 95 => ⟨S_, .i32⟩
  | 96 => ⟨S1047552, .i32⟩
  | 97 => ⟨S1047552, .i1⟩
  | 98 => ⟨S_, .i32⟩
  | 99 => ⟨S1047552, .i32⟩
  | 100 => ⟨S1047552, .i32⟩
  | 101 => ⟨S1047552, .i32⟩
  | 102 => ⟨S1047552x1, .i32⟩
  | 103 => ⟨S1047552x256, .f32⟩
  | 104 => ⟨S_, .f32⟩
  | 105 => ⟨S1024x256, .f32⟩
  | 106 => ⟨S1047552x1, .i32⟩
  | 107 => ⟨S1024x256, .f32⟩
  | 108 => ⟨S1024x256, .f32⟩
  | 109 => ⟨S1024x256, .f32⟩
  | 110 => ⟨S1x256, .f32⟩
  | 111 => ⟨S1024x256, .f32⟩
  | 112 => ⟨S1024x256, .f32⟩
  | 113 => ⟨S_, .f32⟩
  | 114 => ⟨S1024x256, .f32⟩
  | 115 => ⟨S1024x256, .f32⟩
  | 116 => ⟨S1024x128, .f32⟩
  | 117 => ⟨S1x128, .f32⟩
  | 118 => ⟨S1024x128, .f32⟩
  | 119 => ⟨S1024x128, .f32⟩
  | 120 => ⟨S_, .f32⟩
  | 121 => ⟨S1024x128, .f32⟩
  | 122 => ⟨S1024x128, .f32⟩
  | 123 => ⟨S_, .f32⟩
  | 124 => ⟨S128, .f32⟩
  | 125 => ⟨S_, .f32⟩
  | 126 => ⟨S128, .f32⟩
  | 127 => ⟨S128, .f32⟩
  | _ => ⟨S1024x128, .f32⟩

abbrev hbmTy0_1 (i : Nat) : BufTy := match i % 128 with
  | 0 => ⟨S_, .i32⟩
  | 1 => ⟨S_, .f32⟩
  | 2 => ⟨S128, .f32⟩
  | 3 => ⟨S1x128, .f32⟩
  | 4 => ⟨S_, .f32⟩
  | 5 => ⟨S1x128, .f32⟩
  | 6 => ⟨S1x128, .f32⟩
  | 7 => ⟨S1024x128, .f32⟩
  | 8 => ⟨S1024x128, .f32⟩
  | 9 => ⟨S1024x128, .f32⟩
  | 10 => ⟨S_, .f32⟩
  | 11 => ⟨S_, .f32⟩
  | 12 => ⟨S_, .f32⟩
  | 13 => ⟨S_, .f32⟩
  | 14 => ⟨S128, .f32⟩
  | 15 => ⟨S128, .f32⟩
  | 16 => ⟨S128, .f32⟩
  | 17 => ⟨S_, .f32⟩
  | 18 => ⟨S_, .i1⟩
  | 19 => ⟨S_, .f32⟩
  | 20 => ⟨S_, .f32⟩
  | 21 => ⟨S128, .f32⟩
  | 22 => ⟨S128, .f32⟩
  | 23 => ⟨S1x128, .f32⟩
  | 24 => ⟨S1024x128, .f32⟩
  | 25 => ⟨S1024x128, .f32⟩
  | 26 => ⟨S_, .f32⟩
  | 27 => ⟨S128, .f32⟩
  | 28 => ⟨S128, .f32⟩
  | 29 => ⟨S128, .f32⟩
  | 30 => ⟨S1x128, .f32⟩
  | 31 => ⟨S1024x128, .f32⟩
  | 32 => ⟨S1024x128, .f32⟩
  | 33 => ⟨S1x128, .f32⟩
  | 34 => ⟨S1024x128, .f32⟩
  | 35 => ⟨S1024x128, .f32⟩
  | 36 => ⟨S1x128, .f32⟩
  | 37 => ⟨S1024x128, .f32⟩
  | 38 => ⟨S1024x128, .f32⟩
  | 39 => ⟨S_, .f32⟩
  | 40 => ⟨S128, .f32⟩
  | _ => ⟨S1024x128, .f32⟩

abbrev hbmTy (i : Nat) : BufTy := match i / 128 with
  | 0 => hbmTy0_0 i
  | 1 => hbmTy0_1 i
  | _ => ⟨S1024x128, .f32⟩

abbrev bufTy : (tb : Table) → Fin (tcTables nBuf tb) → BufTy
  | .hbm, ⟨i, _⟩ => hbmTy i
  | _, _ => ⟨S1024x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_c_0 : Ref sig .tc := ⟨.hbm, 23, rfl⟩
abbrev main_v9 : Ref sig .tc := ⟨.hbm, 24, rfl⟩
abbrev main_v10 : Ref sig .tc := ⟨.hbm, 25, rfl⟩
abbrev main_c_1 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_call0_cst : Ref sig .tc := ⟨.hbm, 41, rfl⟩
abbrev main_call0_v0 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_call1_cst : Ref sig .tc := ⟨.hbm, 48, rfl⟩
abbrev main_call1_v0 : Ref sig .tc := ⟨.hbm, 49, rfl⟩
abbrev main_v29 : Ref sig .tc := ⟨.hbm, 50, rfl⟩
abbrev main_cst_2 : Ref sig .tc := ⟨.hbm, 51, rfl⟩
abbrev main_v30 : Ref sig .tc := ⟨.hbm, 52, rfl⟩
abbrev main_cst_3 : Ref sig .tc := ⟨.hbm, 53, rfl⟩
abbrev main_v31 : Ref sig .tc := ⟨.hbm, 54, rfl⟩
abbrev main_v32 : Ref sig .tc := ⟨.hbm, 55, rfl⟩
abbrev main_c_4 : Ref sig .tc := ⟨.hbm, 56, rfl⟩
abbrev main_call2_cst : Ref sig .tc := ⟨.hbm, 57, rfl⟩
abbrev main_call2_v0 : Ref sig .tc := ⟨.hbm, 58, rfl⟩
abbrev main_call2_v1 : Ref sig .tc := ⟨.hbm, 59, rfl⟩
abbrev main_call2_cst_0 : Ref sig .tc := ⟨.hbm, 60, rfl⟩
abbrev main_call2_v2 : Ref sig .tc := ⟨.hbm, 61, rfl⟩
abbrev main_call2_v3 : Ref sig .tc := ⟨.hbm, 62, rfl⟩
abbrev main_call2_v4 : Ref sig .tc := ⟨.hbm, 63, rfl⟩
abbrev main_call2_v5 : Ref sig .tc := ⟨.hbm, 64, rfl⟩
abbrev main_call2_v6 : Ref sig .tc := ⟨.hbm, 65, rfl⟩
abbrev main_call2_v7 : Ref sig .tc := ⟨.hbm, 66, rfl⟩
abbrev main_call2_cst_1 : Ref sig .tc := ⟨.hbm, 67, rfl⟩
abbrev main_call2_v8 : Ref sig .tc := ⟨.hbm, 68, rfl⟩
abbrev main_call2_cst_2 : Ref sig .tc := ⟨.hbm, 69, rfl⟩
abbrev main_call2_v9 : Ref sig .tc := ⟨.hbm, 70, rfl⟩
abbrev main_call2_v10 : Ref sig .tc := ⟨.hbm, 71, rfl⟩
abbrev main_call2_v11 : Ref sig .tc := ⟨.hbm, 72, rfl⟩
abbrev main_call2_cst_3 : Ref sig .tc := ⟨.hbm, 73, rfl⟩
abbrev main_call2_v12 : Ref sig .tc := ⟨.hbm, 74, rfl⟩
abbrev main_call2_cst_4 : Ref sig .tc := ⟨.hbm, 75, rfl⟩
abbrev main_call2_call0_v0 : Ref sig .tc := ⟨.hbm, 76, rfl⟩
abbrev main_call2_call0_v1 : Ref sig .tc := ⟨.hbm, 77, rfl⟩
abbrev main_v33 : Ref sig .tc := ⟨.hbm, 78, rfl⟩
abbrev main_v34 : Ref sig .tc := ⟨.hbm, 79, rfl⟩
abbrev main_v35 : Ref sig .tc := ⟨.hbm, 80, rfl⟩
abbrev main_v36 : Ref sig .tc := ⟨.hbm, 81, rfl⟩
abbrev main_cst_5 : Ref sig .tc := ⟨.hbm, 82, rfl⟩
abbrev main_v37 : Ref sig .tc := ⟨.hbm, 83, rfl⟩
abbrev main_v38 : Ref sig .tc := ⟨.hbm, 84, rfl⟩
abbrev main_v39 : Ref sig .tc := ⟨.hbm, 85, rfl⟩
abbrev main_v40 : Ref sig .tc := ⟨.hbm, 86, rfl⟩
abbrev main_v41 : Ref sig .tc := ⟨.hbm, 87, rfl⟩
abbrev main_v42 : Ref sig .tc := ⟨.hbm, 88, rfl⟩
abbrev main_v43 : Ref sig .tc := ⟨.hbm, 89, rfl⟩
abbrev main_v44 : Ref sig .tc := ⟨.hbm, 90, rfl⟩
abbrev main_v45 : Ref sig .tc := ⟨.hbm, 91, rfl⟩
abbrev main_v46 : Ref sig .tc := ⟨.hbm, 92, rfl⟩
abbrev main_v47 : Ref sig .tc := ⟨.hbm, 93, rfl⟩
abbrev main_v48 : Ref sig .tc := ⟨.hbm, 94, rfl⟩
abbrev main_c_6 : Ref sig .tc := ⟨.hbm, 95, rfl⟩
abbrev main_v49 : Ref sig .tc := ⟨.hbm, 96, rfl⟩
abbrev main_v50 : Ref sig .tc := ⟨.hbm, 97, rfl⟩
abbrev main_c_7 : Ref sig .tc := ⟨.hbm, 98, rfl⟩
abbrev main_v51 : Ref sig .tc := ⟨.hbm, 99, rfl⟩
abbrev main_v52 : Ref sig .tc := ⟨.hbm, 100, rfl⟩
abbrev main_v53 : Ref sig .tc := ⟨.hbm, 101, rfl⟩
abbrev main_v54 : Ref sig .tc := ⟨.hbm, 102, rfl⟩
abbrev main_v55 : Ref sig .tc := ⟨.hbm, 103, rfl⟩
abbrev main_cst_8 : Ref sig .tc := ⟨.hbm, 104, rfl⟩
abbrev main_v56 : Ref sig .tc := ⟨.hbm, 105, rfl⟩
abbrev main_v57 : Ref sig .tc := ⟨.hbm, 106, rfl⟩
abbrev main_v58 : Ref sig .tc := ⟨.hbm, 107, rfl⟩
abbrev main_v59 : Ref sig .tc := ⟨.hbm, 108, rfl⟩
abbrev main_v60 : Ref sig .tc := ⟨.hbm, 109, rfl⟩
abbrev main_v61 : Ref sig .tc := ⟨.hbm, 110, rfl⟩
abbrev main_v62 : Ref sig .tc := ⟨.hbm, 111, rfl⟩
abbrev main_v63 : Ref sig .tc := ⟨.hbm, 112, rfl⟩
abbrev main_call3_cst : Ref sig .tc := ⟨.hbm, 113, rfl⟩
abbrev main_call3_v0 : Ref sig .tc := ⟨.hbm, 114, rfl⟩
abbrev main_v64 : Ref sig .tc := ⟨.hbm, 115, rfl⟩
abbrev main_v65 : Ref sig .tc := ⟨.hbm, 116, rfl⟩
abbrev main_v66 : Ref sig .tc := ⟨.hbm, 117, rfl⟩
abbrev main_v67 : Ref sig .tc := ⟨.hbm, 118, rfl⟩
abbrev main_v68 : Ref sig .tc := ⟨.hbm, 119, rfl⟩
abbrev main_call4_cst : Ref sig .tc := ⟨.hbm, 120, rfl⟩
abbrev main_call4_v0 : Ref sig .tc := ⟨.hbm, 121, rfl⟩
abbrev main_v69 : Ref sig .tc := ⟨.hbm, 122, rfl⟩
abbrev main_cst_9 : Ref sig .tc := ⟨.hbm, 123, rfl⟩
abbrev main_v70 : Ref sig .tc := ⟨.hbm, 124, rfl⟩
abbrev main_cst_10 : Ref sig .tc := ⟨.hbm, 125, rfl⟩
abbrev main_v71 : Ref sig .tc := ⟨.hbm, 126, rfl⟩
abbrev main_v72 : Ref sig .tc := ⟨.hbm, 127, rfl⟩
abbrev main_c_11 : Ref sig .tc := ⟨.hbm, 128, rfl⟩
abbrev main_call5_cst : Ref sig .tc := ⟨.hbm, 129, rfl⟩
abbrev main_call5_v0 : Ref sig .tc := ⟨.hbm, 130, rfl⟩
abbrev main_call5_v1 : Ref sig .tc := ⟨.hbm, 131, rfl⟩
abbrev main_call5_cst_0 : Ref sig .tc := ⟨.hbm, 132, rfl⟩
abbrev main_call5_v2 : Ref sig .tc := ⟨.hbm, 133, rfl⟩
abbrev main_call5_v3 : Ref sig .tc := ⟨.hbm, 134, rfl⟩
abbrev main_call5_v4 : Ref sig .tc := ⟨.hbm, 135, rfl⟩
abbrev main_call5_v5 : Ref sig .tc := ⟨.hbm, 136, rfl⟩
abbrev main_call5_v6 : Ref sig .tc := ⟨.hbm, 137, rfl⟩
abbrev main_call5_v7 : Ref sig .tc := ⟨.hbm, 138, rfl⟩
abbrev main_call5_cst_1 : Ref sig .tc := ⟨.hbm, 139, rfl⟩
abbrev main_call5_v8 : Ref sig .tc := ⟨.hbm, 140, rfl⟩
abbrev main_call5_cst_2 : Ref sig .tc := ⟨.hbm, 141, rfl⟩
abbrev main_call5_v9 : Ref sig .tc := ⟨.hbm, 142, rfl⟩
abbrev main_call5_v10 : Ref sig .tc := ⟨.hbm, 143, rfl⟩
abbrev main_call5_v11 : Ref sig .tc := ⟨.hbm, 144, rfl⟩
abbrev main_call5_cst_3 : Ref sig .tc := ⟨.hbm, 145, rfl⟩
abbrev main_call5_v12 : Ref sig .tc := ⟨.hbm, 146, rfl⟩
abbrev main_call5_cst_4 : Ref sig .tc := ⟨.hbm, 147, rfl⟩
abbrev main_call5_call0_v0 : Ref sig .tc := ⟨.hbm, 148, rfl⟩
abbrev main_call5_call0_v1 : Ref sig .tc := ⟨.hbm, 149, rfl⟩
abbrev main_v73 : Ref sig .tc := ⟨.hbm, 150, rfl⟩
abbrev main_v74 : Ref sig .tc := ⟨.hbm, 151, rfl⟩
abbrev main_v75 : Ref sig .tc := ⟨.hbm, 152, rfl⟩
abbrev main_v76 : Ref sig .tc := ⟨.hbm, 153, rfl⟩
abbrev main_cst_12 : Ref sig .tc := ⟨.hbm, 154, rfl⟩
abbrev main_v77 : Ref sig .tc := ⟨.hbm, 155, rfl⟩
abbrev main_v78 : Ref sig .tc := ⟨.hbm, 156, rfl⟩
abbrev main_v79 : Ref sig .tc := ⟨.hbm, 157, rfl⟩
abbrev main_v80 : Ref sig .tc := ⟨.hbm, 158, rfl⟩
abbrev main_v81 : Ref sig .tc := ⟨.hbm, 159, rfl⟩
abbrev main_v82 : Ref sig .tc := ⟨.hbm, 160, rfl⟩
abbrev main_v83 : Ref sig .tc := ⟨.hbm, 161, rfl⟩
abbrev main_v84 : Ref sig .tc := ⟨.hbm, 162, rfl⟩
abbrev main_v85 : Ref sig .tc := ⟨.hbm, 163, rfl⟩
abbrev main_v86 : Ref sig .tc := ⟨.hbm, 164, rfl⟩
abbrev main_v87 : Ref sig .tc := ⟨.hbm, 165, rfl⟩
abbrev main_v88 : Ref sig .tc := ⟨.hbm, 166, rfl⟩
abbrev main_cst_13 : Ref sig .tc := ⟨.hbm, 167, rfl⟩
abbrev main_v89 : Ref sig .tc := ⟨.hbm, 168, rfl⟩

abbrev nD : Nat := 1
abbrev τ : Topo := Topo.v7x

variable {F : FTy → Type} [FloatOps F]

class Facts₀ : Prop where
  bcast_S1024_S1024x1023_0 : S1024.BroadcastsInDim S1024x1023 (![0] : Fin 1 → Fin S1024x1023.rank)
  shapeCasts_S1024x1023_S1047552 : S1024x1023.ShapeCasts S1047552
  bcast_S_S1023 : S_.BroadcastsInDim S1023 (![] : Fin 0 → Fin S1023.rank)
  shapeCasts_S1023_S1x1023 : S1023.ShapeCasts S1x1023
  bcast_S1x1023_S1024x1023_0_1 : S1x1023.BroadcastsInDim S1024x1023 (![0, 1] : Fin 2 → Fin S1024x1023.rank)
  bcast_S_S1047552 : S_.BroadcastsInDim S1047552 (![] : Fin 0 → Fin S1047552.rank)
  bcast_S1047552_S1047552x1_0 : S1047552.BroadcastsInDim S1047552x1 (![0] : Fin 1 → Fin S1047552x1.rank)
  bcast_S_S1024x128 : S_.BroadcastsInDim S1024x128 (![] : Fin 0 → Fin S1024x128.rank)
  bcast_S256_S1x256_1 : S256.BroadcastsInDim S1x256 (![1] : Fin 1 → Fin S1x256.rank)
  bcast_S1x256_S1024x256_0_1 : S1x256.BroadcastsInDim S1024x256 (![0, 1] : Fin 2 → Fin S1024x256.rank)
  bcast_S_S1024x256 : S_.BroadcastsInDim S1024x256 (![] : Fin 0 → Fin S1024x256.rank)
  reducesTo_S1024x256_S256_d0 : S1024x256.ReducesTo [0] S256
  h_S_ : 0 < S_.numel
  bcast_S_S256 : S_.BroadcastsInDim S256 (![] : Fin 0 → Fin S256.rank)
  bcast_S_S1x256 : S_.BroadcastsInDim S1x256 (![] : Fin 0 → Fin S1x256.rank)
  bcast_S128_S1x128_1 : S128.BroadcastsInDim S1x128 (![1] : Fin 1 → Fin S1x128.rank)
  bcast_S1x128_S1024x128_0_1 : S1x128.BroadcastsInDim S1024x128 (![0, 1] : Fin 2 → Fin S1024x128.rank)
  reducesTo_S1024x128_S128_d0 : S1024x128.ReducesTo [0] S128
  bcast_S_S128 : S_.BroadcastsInDim S128 (![] : Fin 0 → Fin S128.rank)
  bcast_S_S1x128 : S_.BroadcastsInDim S1x128 (![] : Fin 0 → Fin S1x128.rank)
  gather_S1024x128_S1047552x1_S1047552x128_1_0_n_n_0_1_1128_wf : GatherDims.WF S1024x128 S1047552x1 S1047552x128 [1] [0] [] [0] [] 1 ![1, 128]
  scatter_S1024x128_S1047552x1_S1047552x128_1_0_0_1_wf : ScatterDims.WF S1024x128 S1047552x1 S1047552x128 [1] [0] [0] 1
  dot_S1024x128_S128x256_S1024x256_1_0_0_1_n_n_wf : DotDims.WF S1024x128 S128x256 S1024x256 [1] [0] [0] [1] [] []
  dot_S1024x256_S256x256_S1024x256_1_0_0_1_n_n_wf : DotDims.WF S1024x256 S256x256 S1024x256 [1] [0] [0] [1] [] []
  gather_S1024x256_S1047552x1_S1047552x256_1_0_n_n_0_1_1256_wf : GatherDims.WF S1024x256 S1047552x1 S1047552x256 [1] [0] [] [0] [] 1 ![1, 256]
  scatter_S1024x256_S1047552x1_S1047552x256_1_0_0_1_wf : ScatterDims.WF S1024x256 S1047552x1 S1047552x256 [1] [0] [0] 1
  dot_S1024x256_S256x128_S1024x128_1_0_0_1_n_n_wf : DotDims.WF S1024x256 S256x128 S1024x128 [1] [0] [0] [1] [] []

variable [Facts₀]

def gather_S1024x128_S1047552x1_S1047552x128_1_0_n_n_0_1_1128 : GatherDims S1024x128 S1047552x1 S1047552x128 where
  offsetDims := [1]
  collapsedSliceDims := [0]
  operandBatchingDims := []
  startIndicesBatchingDims := []
  startIndexMap := [0]
  indexVectorDim := 1
  sliceSizes := ![1, 128]
  wf := gather_S1024x128_S1047552x1_S1047552x128_1_0_n_n_0_1_1128_wf
def scatter_S1024x128_S1047552x1_S1047552x128_1_0_0_1 : ScatterDims S1024x128 S1047552x1 S1047552x128 where
  updateWindowDims := [1]
  insertedWindowDims := [0]
  scatterDimsToOperandDims := [0]
  indexVectorDim := 1
  wf := scatter_S1024x128_S1047552x1_S1047552x128_1_0_0_1_wf
def dot_S1024x128_S128x256_S1024x256_1_0_0_1_n_n : DotDims S1024x128 S128x256 S1024x256 where
  lhsContracting := [1]
  rhsContracting := [0]
  lhsNonContracting := [0]
  rhsNonContracting := [1]
  lhsBatch := []
  rhsBatch := []
  wf := dot_S1024x128_S128x256_S1024x256_1_0_0_1_n_n_wf
def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf
def gather_S1024x256_S1047552x1_S1047552x256_1_0_n_n_0_1_1256 : GatherDims S1024x256 S1047552x1 S1047552x256 where
  offsetDims := [1]
  collapsedSliceDims := [0]
  operandBatchingDims := []
  startIndicesBatchingDims := []
  startIndexMap := [0]
  indexVectorDim := 1
  sliceSizes := ![1, 256]
  wf := gather_S1024x256_S1047552x1_S1047552x256_1_0_n_n_0_1_1256_wf
def scatter_S1024x256_S1047552x1_S1047552x256_1_0_0_1 : ScatterDims S1024x256 S1047552x1 S1047552x256 where
  updateWindowDims := [1]
  insertedWindowDims := [0]
  scatterDimsToOperandDims := [0]
  indexVectorDim := 1
  wf := scatter_S1024x256_S1047552x1_S1047552x256_1_0_0_1_wf
def dot_S1024x256_S256x128_S1024x128_1_0_0_1_n_n : DotDims S1024x256 S256x128 S1024x128 where
  lhsContracting := [1]
  rhsContracting := [0]
  lhsNonContracting := [0]
  rhsNonContracting := [1]
  lhsBatch := []
  rhsBatch := []
  wf := dot_S1024x256_S256x128_S1024x128_1_0_0_1_n_n_wf

class Facts : Prop extends Facts₀ where

variable [Facts]
-- ==== Proof.KerStages.lean ====
/-
  The kernel body's stages as functions of whole arrays: the row mask (zero on row 0, one elsewhere), the
  aggregation (each row plus the mask times the sum of all rows), the two-layer perceptron with its rectifiers
  (matrix products of operands narrowed to bf16), the batch normalisation from the column means and the column
  sums of centred squares, and the column-sum readout; their composition is the body's one stored value.
-/
import proofs.«115119_j47768626266491_1_alg».proof.Proof.Gen.KernelIdeal.Skeleton

noncomputable section

namespace Cert.KernelIdeal.Stage

open Idealize.ShloMosaic Cert.KernelIdeal Cert.KernelIdeal.Facts₀

variable {F : FTy → Type} [FloatOps F]

/-- The row mask as a column: `0` on row 0 and `1` on every other row. -/
def mask : FVec F S1024x1 .f32 := Gen.k0_pay2 (F := F)

def colsum128 (h : FVec F S1024x128 .f32) : FVec F S128 .f32 :=
  multiReduction .add [0] S128 h 0x00000000#32 reduces_S1024x128_S128 (.inl rfl) rfl

def colsum256 (h : FVec F S1024x256 .f32) : FVec F S256 .f32 :=
  multiReduction .add [0] S256 h 0x00000000#32 reduces_S1024x256_S256 (.inl rfl) rfl

/-- A vector of 128 laid along every row. -/
def row128 (b : FVec F S128 .f32) : FVec F S1024x128 .f32 :=
  broadcastTo S1024x128 (shapeCast S1x128 b shapeCasts_S128_S1x128) broadcasts_S1x128_S1024x128

/-- A vector of 256 laid along every row. -/
def row256 (b : FVec F S256 .f32) : FVec F S1024x256 .f32 :=
  broadcastTo S1024x256 (shapeCast S1x256 b shapeCasts_S256_S1x256) broadcasts_S1x256_S1024x256

/-! ## Aggregation: each row plus, off row 0, the sum of all rows -/

def agg128 (msk : FVec F S1024x1 .f32) (x : FVec F S1024x128 .f32) : FVec F S1024x128 .f32 :=
  addf x (mulf (broadcastTo S1024x128 msk broadcasts_S1024x1_S1024x128) (row128 (colsum128 x)))

def agg256 (msk : FVec F S1024x1 .f32) (x : FVec F S1024x256 .f32) : FVec F S1024x256 .f32 :=
  addf x (mulf (broadcastTo S1024x256 msk broadcasts_S1024x1_S1024x256) (row256 (colsum256 x)))

/-! ## The perceptron -/

def relu256 (h : FVec F S1024x256 .f32) : FVec F S1024x256 .f32 :=
  maximumf h (broadcast S1024x256 (Scalar.ofBits .f32 0x00000000#32))

def relu128 (h : FVec F S1024x128 .f32) : FVec F S1024x128 .f32 :=
  maximumf h (broadcast S1024x128 (Scalar.ofBits .f32 0x00000000#32))

/-- `relu (relu (a · W1 + b1) · W2 + b2)`, 128 → 256 → 256. -/
def mlp1 (a : FVec F S1024x128 .f32) (W1 : FVec F S128x256 .f32) (b1 : FVec F S256 .f32)
    (W2 : FVec F S256x256 .f32) (b2 : FVec F S256 .f32) : FVec F S1024x256 .f32 :=
  relu256 (addf (matmul dot_S1024x256_S256x256_S1024x256_1_0_0_1_n_n none
      (truncf .bf16 (relu256 (addf (matmul dot_S1024x128_S128x256_S1024x256_1_0_0_1_n_n none
          (truncf .bf16 a bitsLt_bf16_f32) (truncf .bf16 W1 bitsLt_bf16_f32) (constant S1024x256 .f32 0x00000000#32))
        (row256 b1))) bitsLt_bf16_f32)
      (truncf .bf16 W2 bitsLt_bf16_f32) (constant S1024x256 .f32 0x00000000#32)) (row256 b2))

/-- `relu (relu (a · W1 + b1) · W2 + b2)`, 256 → 256 → 128. -/
def mlp2 (a : FVec F S1024x256 .f32) (W1 : FVec F S256x256 .f32) (b1 : FVec F S256 .f32)
    (W2 : FVec F S256x128 .f32) (b2 : FVec F S128 .f32) : FVec F S1024x128 .f32 :=
  relu128 (addf (matmul dot_S1024x256_S256x128_S1024x128_1_0_0_1_n_n none
      (truncf .bf16 (relu256 (addf (matmul dot_S1024x256_S256x256_S1024x256_1_0_0_1_n_n none
          (truncf .bf16 a bitsLt_bf16_f32) (truncf .bf16 W1 bitsLt_bf16_f32) (constant S1024x256 .f32 0x00000000#32))
        (row256 b1))) bitsLt_bf16_f32)
      (truncf .bf16 W2 bitsLt_bf16_f32) (constant S1024x128 .f32 0x00000000#32)) (row128 b2))

/-! ## Batch normalisation -/

/-- The column means, as a row. -/
def mean256 (h : FVec F S1024x256 .f32) : FVec F S1x256 .f32 :=
  divf (shapeCast S1x256 (colsum256 h) shapeCasts_S256_S1x256) (broadcast S1x256 (Scalar.ofBits .f32 0x44800000#32))

def mean128 (h : FVec F S1024x128 .f32) : FVec F S1x128 .f32 :=
  divf (shapeCast S1x128 (colsum128 h) shapeCasts_S128_S1x128) (broadcast S1x128 (Scalar.ofBits .f32 0x44800000#32))

/-- The column sums of the squares centred at `mu`. -/
def ssq256 (h : FVec F S1024x256 .f32) (mu : FVec F S1x256 .f32) : FVec F S256 .f32 :=
  colsum256 (mulf (subf h (broadcastTo S1024x256 mu broadcasts_S1x256_S1024x256))
    (subf h (broadcastTo S1024x256 mu broadcasts_S1x256_S1024x256)))

def ssq128 (h : FVec F S1024x128 .f32) (mu : FVec F S1x128 .f32) : FVec F S128 .f32 :=
  colsum128 (mulf (subf h (broadcastTo S1024x128 mu broadcasts_S1x128_S1024x128))
    (subf h (broadcastTo S1024x128 mu broadcasts_S1x128_S1024x128)))

/-- `(h − mu) · rsqrt (ssq / 1024 + ε) · γ + β` from a given row of means and a given vector of centred square sums. -/
def bnFrom256 (h : FVec F S1024x256 .f32) (mu : FVec F S1x256 .f32) (ssq g be : FVec F S256 .f32) : FVec F S1024x256 .f32 :=
  addf (mulf (mulf (subf h (broadcastTo S1024x256 mu broadcasts_S1x256_S1024x256))
        (broadcastTo S1024x256 (rsqrt (addf
            (divf (shapeCast S1x256 ssq shapeCasts_S256_S1x256) (broadcast S1x256 (Scalar.ofBits .f32 0x44800000#32)))
            (broadcast S1x256 (Scalar.ofBits .f32 0x3727C5AC#32)))) broadcasts_S1x256_S1024x256))
      (row256 g))
    (row256 be)

def bnFrom128 (h : FVec F S1024x128 .f32) (mu : FVec F S1x128 .f32) (ssq g be : FVec F S128 .f32) : FVec F S1024x128 .f32 :=
  addf (mulf (mulf (subf h (broadcastTo S1024x128 mu broadcasts_S1x128_S1024x128))
        (broadcastTo S1024x128 (rsqrt (addf
            (divf (shapeCast S1x128 ssq shapeCasts_S128_S1x128) (broadcast S1x128 (Scalar.ofBits .f32 0x44800000#32)))
            (broadcast S1x128 (Scalar.ofBits .f32 0x3727C5AC#32)))) broadcasts_S1x128_S1024x128))
      (row128 g))
    (row128 be)

/-- Batch normalisation over 256 columns: the means and the centred square sums are the array's own. -/
def bn256 (h : FVec F S1024x256 .f32) (g be : FVec F S256 .f32) : FVec F S1024x256 .f32 :=
  bnFrom256 h (mean256 h) (ssq256 h (mean256 h)) g be

/-- The same over 128 columns. -/
def bn128 (h : FVec F S1024x128 .f32) (g be : FVec F S128 .f32) : FVec F S1024x128 .f32 :=
  bnFrom128 h (mean128 h) (ssq128 h (mean128 h)) g be

/-! ## The whole body -/

/-- What the body stores, as a function of its thirteen loaded arrays. -/
def kerComp (x : FVec F S1024x128 .f32) (W1a : FVec F S128x256 .f32) (b1a : FVec F S256 .f32)
    (W1b : FVec F S256x256 .f32) (b1b g1 be1 : FVec F S256 .f32) (W2a : FVec F S256x256 .f32) (b2a : FVec F S256 .f32)
    (W2b : FVec F S256x128 .f32) (b2b g2 be2 : FVec F S128 .f32) : FVec F S128 .f32 :=
  colsum128 (bn128 (mlp2 (agg256 mask (bn256 (mlp1 (agg128 mask x) W1a b1a W1b b1b) g1 be1)) W2a b2a W2b b2b) g2 be2)

/-- The body's payloads, composed as the body composes them, are that function: the definitions unfold to the same term. -/
theorem pay_eq (x : FVec F S1024x128 .f32) (W1a : FVec F S128x256 .f32) (b1a : FVec F S256 .f32)
    (W1b : FVec F S256x256 .f32) (b1b g1 be1 : FVec F S256 .f32) (W2a : FVec F S256x256 .f32) (b2a : FVec F S256 .f32)
    (W2b : FVec F S256x128 .f32) (b2b g2 be2 : FVec F S128 .f32) :
    Gen.k0_pay1 (Gen.k0_pay6 (Gen.k0_pay2 (F := F)) (Gen.k0_pay3 x W1a b1a W1b b1b) (Gen.k0_pay4 x W1a b1a W1b b1b) (Gen.k0_pay5 x W1a b1a W1b b1b)
        g1 be1 W2a b2a W2b b2b) g2 be2
      = kerComp x W1a b1a W1b b1b g1 be1 W2a b2a W2b b2b g2 be2 := rfl

end Cert.KernelIdeal.Stage

end
-- ==== Proof.KerValue.lean ====
/-
  The kernel's run, read: the grid has one point and every window's block is its whole array (all index maps are
  constantly zero), so what the point writes back is the body's stored value of the argument arrays themselves,
  and that one block covers the result array: the result ends at the stages' composition of the thirteen arguments.
-/
import proofs.«115119_j47768626266491_1_alg».proof.Proof.Gen.KernelIdeal.Value
import proofs.«115119_j47768626266491_1_alg».proof.Proof.KerStages
import Idealize.ShloMosaic.Lib.Pipeline.Value

noncomputable section

open Idealize.ShloMosaic Idealize.ShloMosaic.TcCoe Idealize.SL.Sem
open Idealize.ShloMosaic.Pipeline (Dat)

namespace Cert.KernelIdeal.KerValue

open Cert.KernelIdeal Cert.KernelIdeal.Gen

variable {F : FTy → Type} [FloatOps F]
variable (m : (ℓ : Loc nD τ sig) → Buf (Elt F) ℓ) (ρ : Dev nD → PrngReg)

theorem hz1 : (![0] : Fin 1 → Nat) = fun _ => 0 := funext fun a => by fin_cases a <;> rfl
theorem hz2 : (![0, 0] : Fin 2 → Nat) = fun _ => 0 := funext fun a => by fin_cases a <;> rfl

/-! ## Each input window's one block is its whole array -/

theorem iblk0 (c : Dev nD) : (iblk m c 0 t0_0 : Vec F S1024x128 .f32) = V m c main_arg0 :=
  Memref.read_access_unit_zero (Elt F) main_arg0 (off := fun a => win0_0.index t0_0 a * main_arg0.ty.shape.size a)
    (funext fun a => by fin_cases a <;> decide) _ (V m c main_arg0)
theorem iblk1 (c : Dev nD) : (iblk m c 1 t0_0 : Vec F S128x256 .f32) = V m c main_arg1 :=
  Memref.read_access_unit_zero (Elt F) main_arg1 (off := fun a => win0_1.index t0_0 a * main_arg1.ty.shape.size a)
    (funext fun a => by fin_cases a <;> decide) _ (V m c main_arg1)
theorem iblk2 (c : Dev nD) : (iblk m c 2 t0_0 : Vec F S256 .f32) = V m c main_arg2 :=
  Memref.read_access_unit_zero (Elt F) main_arg2 (off := fun a => win0_2.index t0_0 a * main_arg2.ty.shape.size a)
    (funext fun a => by fin_cases a <;> decide) _ (V m c main_arg2)
theorem iblk3 (c : Dev nD) : (iblk m c 3 t0_0 : Vec F S256x256 .f32) = V m c main_arg3 :=
  Memref.read_access_unit_zero (Elt F) main_arg3 (off := fun a => win0_3.index t0_0 a * main_arg3.ty.shape.size a)
    (funext fun a => by fin_cases a <;> decide) _ (V m c main_arg3)
theorem iblk4 (c : Dev nD) : (iblk m c 4 t0_0 : Vec F S256 .f32) = V m c main_arg4 :=
  Memref.read_access_unit_zero (Elt F) main_arg4 (off := fun a => win0_4.index t0_0 a * main_arg4.ty.shape.size a)
    (funext fun a => by fin_cases a <;> decide) _ (V m c main_arg4)
theorem iblk5 (c : Dev nD) : (iblk m c 5 t0_0 : Vec F S256 .f32) = V m c main_arg5 :=
  Memref.read_access_unit_zero (Elt F) main_arg5 (off := fun a => win0_5.index t0_0 a * main_arg5.ty.shape.size a)
    (funext fun a => by fin_cases a <;> decide) _ (V m c main_arg5)
theorem iblk6 (c : Dev nD) : (iblk m c 6 t0_0 : Vec F S256 .f32) = V m c main_arg6 :=
  Memref.read_access_unit_zero (Elt F) main_arg6 (off := fun a => win0_6.index t0_0 a * main_arg6.ty.shape.size a)
    (funext fun a => by fin_cases a <;> decide) _ (V m c main_arg6)
theorem iblk7 (c : Dev nD) : (iblk m c 7 t0_0 : Vec F S256x256 .f32) = V m c main_arg7 :=
  Memref.read_access_unit_zero (Elt F) main_arg7 (off := fun a => win0_7.index t0_0 a * main_arg7.ty.shape.size a)
    (funext fun a => by fin_cases a <;> decide) _ (V m c main_arg7)
theorem iblk8 (c : Dev nD) : (iblk m c 8 t0_0 : Vec F S256 .f32) = V m c main_arg8 :=
  Memref.read_access_unit_zero (Elt F) main_arg8 (off := fun a => win0_8.index t0_0 a * main_arg8.ty.shape.size a)
    (funext fun a => by fin_cases a <;> decide) _ (V m c main_arg8)
theorem iblk9 (c : Dev nD) : (iblk m c 9 t0_0 : Vec F S256x128 .f32) = V m c main_arg9 :=
  Memref.read_access_unit_zero (Elt F) main_arg9 (off := fun a => win0_9.index t0_0 a * main_arg9.ty.shape.size a)
    (funext fun a => by fin_cases a <;> decide) _ (V m c main_arg9)
theorem iblk10 (c : Dev nD) : (iblk m c 10 t0_0 : Vec F S128 .f32) = V m c main_arg10 :=
  Memref.read_access_unit_zero (Elt F) main_arg10 (off := fun a => win0_10.index t0_0 a * main_arg10.ty.shape.size a)
    (funext fun a => by fin_cases a <;> decide) _ (V m c main_arg10)
theorem iblk11 (c : Dev nD) : (iblk m c 11 t0_0 : Vec F S128 .f32) = V m c main_arg11 :=
  Memref.read_access_unit_zero (Elt F) main_arg11 (off := fun a => win0_11.index t0_0 a * main_arg11.ty.shape.size a)
    (funext fun a => by fin_cases a <;> decide) _ (V m c main_arg11)
theorem iblk12 (c : Dev nD) : (iblk m c 12 t0_0 : Vec F S128 .f32) = V m c main_arg12 :=
  Memref.read_access_unit_zero (Elt F) main_arg12 (off := fun a => win0_12.index t0_0 a * main_arg12.ty.shape.size a)
    (funext fun a => by fin_cases a <;> decide) _ (V m c main_arg12)

/-! ## The one write-back -/

/-- The body's stored value of the thirteen argument arrays. -/
abbrev result (c : Dev nD) : Buf (Elt F) ((c : Thread nD τ).loc main_v0) :=
  Stage.kerComp (V m c main_arg0) (V m c main_arg1) (V m c main_arg2) (V m c main_arg3) (V m c main_arg4) (V m c main_arg5)
    (V m c main_arg6) (V m c main_arg7) (V m c main_arg8) (V m c main_arg9) (V m c main_arg10) (V m c main_arg11) (V m c main_arg12)

/-- What the grid's one point writes back is `result`, read through the result window's block (the whole array). -/
theorem flushed_eq (c : Dev nD) (t : Fin cfg0.N) (hf : (cfg0.win 13).flush t = true) :
    (dats m 0 c).flushed 13 t = ((cfg0.win 13).blk t).view.read (Elt F) (result m c) := by
  obtain rfl : t = t0_0 := fin_N0 t
  rw [Value.flushed13]
  unfold out0_13
  rw [View.canon_unit_zero hz1]
  simp only [View.ld_unit_zero (S := S1024x128) hz2, View.ld_unit_zero (S := S128x256) hz2, View.ld_unit_zero (S := S256x256) hz2,
    View.ld_unit_zero (S := S256x128) hz2, View.ld_unit_zero (S := S256) hz1, View.ld_unit_zero (S := S128) hz1]
  rw [Stage.pay_eq]
  rw [iblk0 m c, iblk1 m c, iblk2 m c, iblk3 m c, iblk4 m c, iblk5 m c, iblk6 m c, iblk7 m c, iblk8 m c, iblk9 m c,
    iblk10 m c, iblk11 m c, iblk12 m c]
  have hz' : (fun a => win0_13.index t0_0 a * main_v0.ty.shape.size a) = fun _ => 0 := funext fun a => by fin_cases a <;> decide
  exact (Memref.read_access_unit_zero (Elt F) main_v0 hz' (fun a => by rw [congrFun hz' a]; simp) (result m c)).symm

/-- So the result array ends holding `result`: the one point's block covers it. -/
theorem final (c : Dev nD) : (dats m 0 c).arrAt 13 cfg0.N = result m c :=
  (dats m 0 c).arrAt_eq_of_cover 13 (result m c) (flushed_eq m c) fun i =>
    ⟨t0_0, flush0_13 t0_0, by
      show i ∈ ((View.whole main_v0).slice (win0_13.rect t0_0)).set
      rw [View.set_slice_whole, Rect.mem_set_unit]
      intro a
      have h0 : (i 0 : Nat) < 128 := (i 0).isLt
      match a with
      | ⟨0, _⟩ => show win0_13.index t0_0 0 * win0_13.size 0 ≤ (i 0 : Nat) ∧ (i 0 : Nat) < win0_13.index t0_0 0 * win0_13.size 0 + win0_13.xsize (grid0.coords t0_0) 0
                  rw [show win0_13.index t0_0 0 * win0_13.size 0 = 0 from by decide +kernel, show win0_13.xsize (grid0.coords t0_0) 0 = 128 from by decide +kernel]; omega⟩

/-- The run, read: the result buffer at the stages' composition of the arguments as launched, the arguments unchanged. -/
theorem run : θ_run defs (onTc (τ := τ) (main (F := F))) ⟨m, fun _ => 0, ρ⟩ fun r => ∀ c : Dev nD,
      r.2.mem ((c : Thread nD τ).loc main_v0)
        = Stage.kerComp (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
            (m ((c : Thread nD τ).loc main_arg6)) (m ((c : Thread nD τ).loc main_arg7)) (m ((c : Thread nD τ).loc main_arg8))
            (m ((c : Thread nD τ).loc main_arg9)) (m ((c : Thread nD τ).loc main_arg10)) (m ((c : Thread nD τ).loc main_arg11))
            (m ((c : Thread nD τ).loc main_arg12))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12) :=
  (θ_run defs _ _).mono (fun _ h c => ⟨(h c).1.trans (final m c), (h c).2⟩)
    (Cert.KernelIdeal.Value.run_blocks m ρ)

end Cert.KernelIdeal.KerValue

end
-- ==== Proof.RefStages.lean ====
/-
  The reference program's stages as functions of whole arrays: the two edge tables, the neighbourhood
  aggregation (a gather of rows followed by an accumulating scatter), the two-layer perceptron with its
  rectifiers, the batch normalisation (mean, biased variance, scale and shift) and the column-sum readout;
  and their composition, the value the reference returns.
-/
import proofs.«115119_j47768626266491_1_alg».proof.ReferenceIdeal

noncomputable section

namespace Cert.ReferenceIdeal.Stage

open Idealize.ShloMosaic Cert.ReferenceIdeal Cert.ReferenceIdeal.Facts₀

variable {F : FTy → Type} [FloatOps F] [Facts]

/-! ## The edge tables: edge `e` goes from row `e / 1023` to row `1 + e % 1023` -/

/-- The source row of every edge: the row number repeated along 1023 columns, flattened. -/
def srcTbl : IVec S1047552 32 :=
  shapeCast S1047552 (broadcastInDim S1024x1023 ![0] bcast_S1024_S1024x1023_0 (iotaInDim S1024 32 0))
    shapeCasts_S1024x1023_S1047552

/-- The destination row of every edge: `1 + column` repeated along 1024 rows, flattened. -/
def dstTbl : IVec S1047552 32 :=
  shapeCast S1047552 (broadcastInDim S1024x1023 ![0, 1] bcast_S1x1023_S1024x1023_0_1
      (shapeCast S1x1023 (addi (broadcastInDim S1023 ![] bcast_S_S1023 (constantI S_ 32 1#32)) (iotaInDim S1023 32 0))
        shapeCasts_S1023_S1x1023))
    shapeCasts_S1024x1023_S1047552

/-- The gather's start indices: a negative source row wraps by 1024, then one index per edge as a column. -/
def srcIdx (src : IVec S1047552 32) : IVec S1047552x1 32 :=
  broadcastInDim S1047552x1 ![0] bcast_S1047552_S1047552x1_0
    (select (cmpi .slt src (broadcastInDim S1047552 ![] bcast_S_S1047552 (constantI S_ 32 0#32)))
      (addi src (broadcastInDim S1047552 ![] bcast_S_S1047552 (constantI S_ 32 1024#32))) src)

/-- The scatter's indices: one destination row per edge as a column. -/
def dstIdx (dst : IVec S1047552 32) : IVec S1047552x1 32 :=
  broadcastInDim S1047552x1 ![0] bcast_S1047552_S1047552x1_0 dst

/-! ## Aggregation: each row plus the sum of the rows of its in-neighbours -/

def agg128 (x : FVec F S1024x128 .f32) (src dst : IVec S1047552 32) : FVec F S1024x128 .f32 :=
  addf x (Host.scatterAdd scatter_S1024x128_S1047552x1_S1047552x128_1_0_0_1
    (broadcastInDim S1024x128 ![] bcast_S_S1024x128 (constant S_ .f32 0x00000000#32)) (dstIdx dst)
    (Host.gather gather_S1024x128_S1047552x1_S1047552x128_1_0_n_n_0_1_1128 x (srcIdx src)))

def agg256 (x : FVec F S1024x256 .f32) (src dst : IVec S1047552 32) : FVec F S1024x256 .f32 :=
  addf x (Host.scatterAdd scatter_S1024x256_S1047552x1_S1047552x256_1_0_0_1
    (broadcastInDim S1024x256 ![] bcast_S_S1024x256 (constant S_ .f32 0x00000000#32)) (dstIdx dst)
    (Host.gather gather_S1024x256_S1047552x1_S1047552x256_1_0_n_n_0_1_1256 x (srcIdx src)))

/-! ## The perceptron -/

/-- A vector of 256 laid along every row. -/
def row256 (b : FVec F S256 .f32) : FVec F S1024x256 .f32 :=
  broadcastInDim S1024x256 ![0, 1] bcast_S1x256_S1024x256_0_1 (broadcastInDim S1x256 ![1] bcast_S256_S1x256_1 b)

/-- A vector of 128 laid along every row. -/
def row128 (b : FVec F S128 .f32) : FVec F S1024x128 .f32 :=
  broadcastInDim S1024x128 ![0, 1] bcast_S1x128_S1024x128_0_1 (broadcastInDim S1x128 ![1] bcast_S128_S1x128_1 b)

def relu256 (h : FVec F S1024x256 .f32) : FVec F S1024x256 .f32 :=
  maximumf h (broadcastInDim S1024x256 ![] bcast_S_S1024x256 (constant S_ .f32 0x00000000#32))

def relu128 (h : FVec F S1024x128 .f32) : FVec F S1024x128 .f32 :=
  maximumf h (broadcastInDim S1024x128 ![] bcast_S_S1024x128 (constant S_ .f32 0x00000000#32))

/-- `relu (relu (a · W1 + b1) · W2 + b2)`, 128 → 256 → 256. -/
def mlp1 (a : FVec F S1024x128 .f32) (W1 : FVec F S128x256 .f32) (b1 : FVec F S256 .f32)
    (W2 : FVec F S256x256 .f32) (b2 : FVec F S256 .f32) : FVec F S1024x256 .f32 :=
  relu256 (addf (Host.dotGeneral dot_S1024x256_S256x256_S1024x256_1_0_0_1_n_n none
      (relu256 (addf (Host.dotGeneral dot_S1024x128_S128x256_S1024x256_1_0_0_1_n_n none a W1) (row256 b1))) W2) (row256 b2))

/-- `relu (relu (a · W1 + b1) · W2 + b2)`, 256 → 256 → 128. -/
def mlp2 (a : FVec F S1024x256 .f32) (W1 : FVec F S256x256 .f32) (b1 : FVec F S256 .f32)
    (W2 : FVec F S256x128 .f32) (b2 : FVec F S128 .f32) : FVec F S1024x128 .f32 :=
  relu128 (addf (Host.dotGeneral dot_S1024x256_S256x128_S1024x128_1_0_0_1_n_n none
      (relu256 (addf (Host.dotGeneral dot_S1024x256_S256x256_S1024x256_1_0_0_1_n_n none a W1) (row256 b1))) W2) (row128 b2))

/-! ## Batch normalisation -/

def colsum256 (h : FVec F S1024x256 .f32) : FVec F S256 .f32 :=
  Host.reduceAdd h (constant S_ .f32 0x00000000#32) reducesTo_S1024x256_S256_d0 h_S_

def colsum128 (h : FVec F S1024x128 .f32) : FVec F S128 .f32 :=
  Host.reduceAdd h (constant S_ .f32 0x00000000#32) reducesTo_S1024x128_S128_d0 h_S_

/-- The divisor of the variance: 1024 less the degrees of freedom taken off, here none. -/
def varDen : FVec F S_ .f32 :=
  subf (constant S_ .f32 0x44800000#32) (sitofp .f32 (constantI S_ 32 0#32))

/-- The biased variance of every column, as jnp's `var` computes it: the centred squares summed and divided,
    kept where the divisor is positive and a NaN otherwise. -/
def var256 (h : FVec F S1024x256 .f32) : FVec F S256 .f32 :=
  select (broadcastInDim S256 ![] bcast_S_S256 (cmpf .ogt (varDen (F := F)) (constant S_ .f32 0x00000000#32)))
    (Host.divf (colsum256
        (mulf
          (subf h (broadcastInDim S1024x256 ![0, 1] bcast_S1x256_S1024x256_0_1
            (Host.divf (broadcastInDim S1x256 ![1] bcast_S256_S1x256_1 (colsum256 h))
              (broadcastInDim S1x256 ![] bcast_S_S1x256 (constant S_ .f32 0x44800000#32)))))
          (subf h (broadcastInDim S1024x256 ![0, 1] bcast_S1x256_S1024x256_0_1
            (Host.divf (broadcastInDim S1x256 ![1] bcast_S256_S1x256_1 (colsum256 h))
              (broadcastInDim S1x256 ![] bcast_S_S1x256 (constant S_ .f32 0x44800000#32)))))))
      (broadcastInDim S256 ![] bcast_S_S256 (varDen (F := F))))
    (broadcastInDim S256 ![] bcast_S_S256 (id (constant S_ .f32 0x7FC00000#32)))

def var128 (h : FVec F S1024x128 .f32) : FVec F S128 .f32 :=
  select (broadcastInDim S128 ![] bcast_S_S128 (cmpf .ogt (varDen (F := F)) (constant S_ .f32 0x00000000#32)))
    (Host.divf (colsum128
        (mulf
          (subf h (broadcastInDim S1024x128 ![0, 1] bcast_S1x128_S1024x128_0_1
            (Host.divf (broadcastInDim S1x128 ![1] bcast_S128_S1x128_1 (colsum128 h))
              (broadcastInDim S1x128 ![] bcast_S_S1x128 (constant S_ .f32 0x44800000#32)))))
          (subf h (broadcastInDim S1024x128 ![0, 1] bcast_S1x128_S1024x128_0_1
            (Host.divf (broadcastInDim S1x128 ![1] bcast_S128_S1x128_1 (colsum128 h))
              (broadcastInDim S1x128 ![] bcast_S_S1x128 (constant S_ .f32 0x44800000#32)))))))
      (broadcastInDim S128 ![] bcast_S_S128 (varDen (F := F))))
    (broadcastInDim S128 ![] bcast_S_S128 (id (constant S_ .f32 0x7FC00000#32)))

/-- `(h − mean) · rsqrt (var + ε) · γ + β`, column by column, over 256 columns. -/
def bn256 (h : FVec F S1024x256 .f32) (g be : FVec F S256 .f32) : FVec F S1024x256 .f32 :=
  addf (mulf (mulf
        (subf h (row256 (Host.divf (colsum256 h) (broadcastInDim S256 ![] bcast_S_S256 (constant S_ .f32 0x44800000#32)))))
        (row256 (Host.rsqrt (addf (var256 h) (broadcastInDim S256 ![] bcast_S_S256 (constant S_ .f32 0x3727C5AC#32))))))
      (row256 g))
    (row256 be)

/-- The same over 128 columns. -/
def bn128 (h : FVec F S1024x128 .f32) (g be : FVec F S128 .f32) : FVec F S1024x128 .f32 :=
  addf (mulf (mulf
        (subf h (row128 (Host.divf (colsum128 h) (broadcastInDim S128 ![] bcast_S_S128 (constant S_ .f32 0x44800000#32)))))
        (row128 (Host.rsqrt (addf (var128 h) (broadcastInDim S128 ![] bcast_S_S128 (constant S_ .f32 0x3727C5AC#32))))))
      (row128 g))
    (row128 be)

/-! ## The whole reference -/

/-- What the reference returns, as a function of its thirteen arguments. -/
def refComp (x : FVec F S1024x128 .f32) (W1a : FVec F S128x256 .f32) (b1a : FVec F S256 .f32)
    (W1b : FVec F S256x256 .f32) (b1b g1 be1 : FVec F S256 .f32) (W2a : FVec F S256x256 .f32) (b2a : FVec F S256 .f32)
    (W2b : FVec F S256x128 .f32) (b2b g2 be2 : FVec F S128 .f32) : FVec F S128 .f32 :=
  colsum128 (bn128 (mlp2 (agg256 (bn256 (mlp1 (agg128 x srcTbl dstTbl) W1a b1a W1b b1b) g1 be1) srcTbl dstTbl)
    W2a b2a W2b b2b) g2 be2)

end Cert.ReferenceIdeal.Stage

end
-- ==== Proof.RefRun.lean ====
/-
  The reference's run: @main is a straight line of host operations (the module-local functions it calls unfolded
  at their call sites), so every weakly fair execution ends with each buffer at the operations' fold over the launch
  contents; read stage by stage, the result buffer ends at the stages' composition of the thirteen arguments, and the
  arguments end as they were.
-/
import proofs.«115119_j47768626266491_1_alg».proof.Proof.RefStages
import proofs.«115119_j47768626266491_1_alg».proof.Proof.Gen.ReferenceIdeal
import Idealize.ShloMosaic.Lib.StableHlo.Run
import Idealize.ShloMosaic.Lib.Pipeline.Frame

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-! ## The operations, stage by stage -/

/-- The two edge tables: the ten operations writing `main_v0` … `main_v8`. -/
abbrev ops0 : List (HloOp τ sig (Elt F)) :=
  [ nullary main_v0 (iotaInDim S1024 32 0),
    unary main_v0 main_v1 (broadcastInDim S1024x1023 ![0] Facts₀.bcast_S1024_S1024x1023_0),
    reshape main_v1 main_v2 rfl Facts₀.shapeCasts_S1024x1023_S1047552,
    nullary main_v3 (iotaInDim S1023 32 0),
    nullary main_c (constantI S_ 32 1#32),
    unary main_c main_v4 (broadcastInDim S1023 ![] Facts₀.bcast_S_S1023),
    binary main_v4 main_v3 main_v5 addi,
    reshape main_v5 main_v6 rfl Facts₀.shapeCasts_S1023_S1x1023,
    unary main_v6 main_v7 (broadcastInDim S1024x1023 ![0, 1] Facts₀.bcast_S1x1023_S1024x1023_0_1),
    reshape main_v7 main_v8 rfl Facts₀.shapeCasts_S1024x1023_S1047552 ]

/-- The first aggregation: the fourteen operations from `main_c_0` to `main_v19`. -/
abbrev ops1 : List (HloOp τ sig (Elt F)) :=
  [ nullary main_c_0 (constantI S_ 32 0#32),
    unary main_c_0 main_v9 (broadcastInDim S1047552 ![] Facts₀.bcast_S_S1047552),
    binary main_v2 main_v9 main_v10 (cmpi .slt),
    nullary main_c_1 (constantI S_ 32 1024#32),
    unary main_c_1 main_v11 (broadcastInDim S1047552 ![] Facts₀.bcast_S_S1047552),
    binary main_v2 main_v11 main_v12 addi,
    ternary main_v10 main_v12 main_v2 main_v13 select,
    unary main_v13 main_v14 (broadcastInDim S1047552x1 ![0] Facts₀.bcast_S1047552_S1047552x1_0),
    binary main_arg0 main_v14 main_v15 (fun x i => Host.gather gather_S1024x128_S1047552x1_S1047552x128_1_0_n_n_0_1_1128 x i),
    nullary main_cst (constant S_ .f32 0x00000000#32),
    unary main_cst main_v16 (broadcastInDim S1024x128 ![] Facts₀.bcast_S_S1024x128),
    unary main_v8 main_v17 (broadcastInDim S1047552x1 ![0] Facts₀.bcast_S1047552_S1047552x1_0),
    ternary main_v16 main_v17 main_v15 main_v18 (fun x i u => Host.scatterAdd scatter_S1024x128_S1047552x1_S1047552x128_1_0_0_1 x i u),
    binary main_arg0 main_v18 main_v19 addf ]

/-- The first perceptron: the fourteen operations from `main_v20` to `main_v29`, the two rectifier calls unfolded. -/
abbrev ops2 : List (HloOp τ sig (Elt F)) :=
  [ binary main_v19 main_arg1 main_v20 (fun l r => Host.dotGeneral dot_S1024x128_S128x256_S1024x256_1_0_0_1_n_n none l r),
    unary main_arg2 main_v21 (broadcastInDim S1x256 ![1] Facts₀.bcast_S256_S1x256_1),
    unary main_v21 main_v22 (broadcastInDim S1024x256 ![0, 1] Facts₀.bcast_S1x256_S1024x256_0_1),
    binary main_v20 main_v22 main_v23 addf,
    TRef.nullary main_call0.cst (constant S_ .f32 0x00000000#32),
    TRef.unary main_call0.cst main_call0.v0 (broadcastInDim S1024x256 ![] Facts₀.bcast_S_S1024x256),
    TRef.binary (.of main_v23) main_call0.v0 main_call0.v1 maximumf,
    binary main_v24 main_arg3 main_v25 (fun l r => Host.dotGeneral dot_S1024x256_S256x256_S1024x256_1_0_0_1_n_n none l r),
    unary main_arg4 main_v26 (broadcastInDim S1x256 ![1] Facts₀.bcast_S256_S1x256_1),
    unary main_v26 main_v27 (broadcastInDim S1024x256 ![0, 1] Facts₀.bcast_S1x256_S1024x256_0_1),
    binary main_v25 main_v27 main_v28 addf,
    TRef.nullary main_call1.cst (constant S_ .f32 0x00000000#32),
    TRef.unary main_call1.cst main_call1.v0 (broadcastInDim S1024x256 ![] Facts₀.bcast_S_S1024x256),
    TRef.binary (.of main_v28) main_call1.v0 main_call1.v1 maximumf ]

/-- The first normalisation: the forty-four operations from `main_cst_2` to `main_v48`, the variance call (with the
    selection it calls) unfolded. -/
abbrev ops3 : List (HloOp τ sig (Elt F)) :=
  [ nullary main_cst_2 (constant S_ .f32 0x00000000#32),
    binary main_v29 main_cst_2 main_v30 (fun x v => Host.reduceAdd x v Facts₀.reducesTo_S1024x256_S256_d0 Facts₀.h_S_),
    nullary main_cst_3 (constant S_ .f32 0x44800000#32),
    unary main_cst_3 main_v31 (broadcastInDim S256 ![] Facts₀.bcast_S_S256),
    binary main_v30 main_v31 main_v32 Host.divf,
    nullary main_c_4 (constantI S_ 32 0#32),
    TRef.nullary main_call2.cst (constant S_ .f32 0x00000000#32),
    TRef.binary (.of main_v29) main_call2.cst main_call2.v0 (fun x v => Host.reduceAdd x v Facts₀.reducesTo_S1024x256_S256_d0 Facts₀.h_S_),
    TRef.unary main_call2.v0 main_call2.v1 (broadcastInDim S1x256 ![1] Facts₀.bcast_S256_S1x256_1),
    TRef.nullary main_call2.cst_0 (constant S_ .f32 0x44800000#32),
    TRef.unary main_call2.cst_0 main_call2.v2 (broadcastInDim S1x256 ![] Facts₀.bcast_S_S1x256),
    TRef.binary main_call2.v1 main_call2.v2 main_call2.v3 Host.divf,
    TRef.unary main_call2.v3 main_call2.v4 (broadcastInDim S1024x256 ![0, 1] Facts₀.bcast_S1x256_S1024x256_0_1),
    TRef.binary (.of main_v29) main_call2.v4 main_call2.v5 subf,
    TRef.binary main_call2.v5 main_call2.v5 main_call2.v6 mulf,
    TRef.unary (.of main_c_4) main_call2.v7 (sitofp .f32),
    TRef.nullary main_call2.cst_1 (constant S_ .f32 0x44800000#32),
    TRef.binary main_call2.cst_1 main_call2.v7 main_call2.v8 subf,
    TRef.nullary main_call2.cst_2 (constant S_ .f32 0x00000000#32),
    TRef.binary main_call2.v6 main_call2.cst_2 main_call2.v9 (fun x v => Host.reduceAdd x v Facts₀.reducesTo_S1024x256_S256_d0 Facts₀.h_S_),
    TRef.unary main_call2.v8 main_call2.v10 (broadcastInDim S256 ![] Facts₀.bcast_S_S256),
    TRef.binary main_call2.v9 main_call2.v10 main_call2.v11 Host.divf,
    TRef.nullary main_call2.cst_3 (constant S_ .f32 0x00000000#32),
    TRef.binary main_call2.v8 main_call2.cst_3 main_call2.v12 (cmpf .ogt),
    TRef.nullary main_call2.cst_4 (constant S_ .f32 0x7FC00000#32),
    TRef.unary main_call2.cst_4 main_call2.call0.v0 id,
    TRef.unary main_call2.call0.v0 main_call2.call0.v1 (broadcastInDim S256 ![] Facts₀.bcast_S_S256),
    TRef.ternary main_call2.v12 main_call2.v11 main_call2.call0.v1 main_call2.call0.v2 (fun p a b => select (broadcastInDim S256 ![] Facts₀.bcast_S_S256 p) a b),
    unary main_v32 main_v34 (broadcastInDim S1x256 ![1] Facts₀.bcast_S256_S1x256_1),
    unary main_v34 main_v35 (broadcastInDim S1024x256 ![0, 1] Facts₀.bcast_S1x256_S1024x256_0_1),
    binary main_v29 main_v35 main_v36 subf,
    nullary main_cst_5 (constant S_ .f32 0x3727C5AC#32),
    unary main_cst_5 main_v37 (broadcastInDim S256 ![] Facts₀.bcast_S_S256),
    binary main_v33 main_v37 main_v38 addf,
    unary main_v38 main_v39 Host.rsqrt,
    unary main_v39 main_v40 (broadcastInDim S1x256 ![1] Facts₀.bcast_S256_S1x256_1),
    unary main_v40 main_v41 (broadcastInDim S1024x256 ![0, 1] Facts₀.bcast_S1x256_S1024x256_0_1),
    binary main_v36 main_v41 main_v42 mulf,
    unary main_arg5 main_v43 (broadcastInDim S1x256 ![1] Facts₀.bcast_S256_S1x256_1),
    unary main_v43 main_v44 (broadcastInDim S1024x256 ![0, 1] Facts₀.bcast_S1x256_S1024x256_0_1),
    binary main_v42 main_v44 main_v45 mulf,
    unary main_arg6 main_v46 (broadcastInDim S1x256 ![1] Facts₀.bcast_S256_S1x256_1),
    unary main_v46 main_v47 (broadcastInDim S1024x256 ![0, 1] Facts₀.bcast_S1x256_S1024x256_0_1),
    binary main_v45 main_v47 main_v48 addf ]

/-- The head of the second aggregation, the three operations with which `main_part0` ends: `main_c_6`, `main_v49`,
    `main_v50`. -/
abbrev ops4 : List (HloOp τ sig (Elt F)) :=
  [ nullary main_c_6 (constantI S_ 32 0#32),
    unary main_c_6 main_v49 (broadcastInDim S1047552 ![] Facts₀.bcast_S_S1047552),
    binary main_v2 main_v49 main_v50 (cmpi .slt) ]

/-- The rest of the second aggregation: the eleven operations from `main_c_7` to `main_v59`. -/
abbrev ops5 : List (HloOp τ sig (Elt F)) :=
  [ nullary main_c_7 (constantI S_ 32 1024#32),
    unary main_c_7 main_v51 (broadcastInDim S1047552 ![] Facts₀.bcast_S_S1047552),
    binary main_v2 main_v51 main_v52 addi,
    ternary main_v50 main_v52 main_v2 main_v53 select,
    unary main_v53 main_v54 (broadcastInDim S1047552x1 ![0] Facts₀.bcast_S1047552_S1047552x1_0),
    binary main_v48 main_v54 main_v55 (fun x i => Host.gather gather_S1024x256_S1047552x1_S1047552x256_1_0_n_n_0_1_1256 x i),
    nullary main_cst_8 (constant S_ .f32 0x00000000#32),
    unary main_cst_8 main_v56 (broadcastInDim S1024x256 ![] Facts₀.bcast_S_S1024x256),
    unary main_v8 main_v57 (broadcastInDim S1047552x1 ![0] Facts₀.bcast_S1047552_S1047552x1_0),
    ternary main_v56 main_v57 main_v55 main_v58 (fun x i u => Host.scatterAdd scatter_S1024x256_S1047552x1_S1047552x256_1_0_0_1 x i u),
    binary main_v48 main_v58 main_v59 addf ]

/-- The second perceptron: the fourteen operations from `main_v60` to `main_v69`, the two rectifier calls unfolded. -/
abbrev ops6 : List (HloOp τ sig (Elt F)) :=
  [ binary main_v59 main_arg7 main_v60 (fun l r => Host.dotGeneral dot_S1024x256_S256x256_S1024x256_1_0_0_1_n_n none l r),
    unary main_arg8 main_v61 (broadcastInDim S1x256 ![1] Facts₀.bcast_S256_S1x256_1),
    unary main_v61 main_v62 (broadcastInDim S1024x256 ![0, 1] Facts₀.bcast_S1x256_S1024x256_0_1),
    binary main_v60 main_v62 main_v63 addf,
    TRef.nullary main_call3.cst (constant S_ .f32 0x00000000#32),
    TRef.unary main_call3.cst main_call3.v0 (broadcastInDim S1024x256 ![] Facts₀.bcast_S_S1024x256),
    TRef.binary (.of main_v63) main_call3.v0 main_call3.v1 maximumf,
    binary main_v64 main_arg9 main_v65 (fun l r => Host.dotGeneral dot_S1024x256_S256x128_S1024x128_1_0_0_1_n_n none l r),
    unary main_arg10 main_v66 (broadcastInDim S1x128 ![1] Facts₀.bcast_S128_S1x128_1),
    unary main_v66 main_v67 (broadcastInDim S1024x128 ![0, 1] Facts₀.bcast_S1x128_S1024x128_0_1),
    binary main_v65 main_v67 main_v68 addf,
    TRef.nullary main_call4.cst (constant S_ .f32 0x00000000#32),
    TRef.unary main_call4.cst main_call4.v0 (broadcastInDim S1024x128 ![] Facts₀.bcast_S_S1024x128),
    TRef.binary (.of main_v68) main_call4.v0 main_call4.v1 maximumf ]

/-- The second normalisation: the forty-four operations from `main_cst_9` to `main_v88`, the variance call (with the
    selection it calls) unfolded. -/
abbrev ops7 : List (HloOp τ sig (Elt F)) :=
  [ nullary main_cst_9 (constant S_ .f32 0x00000000#32),
    binary main_v69 main_cst_9 main_v70 (fun x v => Host.reduceAdd x v Facts₀.reducesTo_S1024x128_S128_d0 Facts₀.h_S_),
    nullary main_cst_10 (constant S_ .f32 0x44800000#32),
    unary main_cst_10 main_v71 (broadcastInDim S128 ![] Facts₀.bcast_S_S128),
    binary main_v70 main_v71 main_v72 Host.divf,
    nullary main_c_11 (constantI S_ 32 0#32),
    TRef.nullary main_call5.cst (constant S_ .f32 0x00000000#32),
    TRef.binary (.of main_v69) main_call5.cst main_call5.v0 (fun x v => Host.reduceAdd x v Facts₀.reducesTo_S1024x128_S128_d0 Facts₀.h_S_),
    TRef.unary main_call5.v0 main_call5.v1 (broadcastInDim S1x128 ![1] Facts₀.bcast_S128_S1x128_1),
    TRef.nullary main_call5.cst_0 (constant S_ .f32 0x44800000#32),
    TRef.unary main_call5.cst_0 main_call5.v2 (broadcastInDim S1x128 ![] Facts₀.bcast_S_S1x128),
    TRef.binary main_call5.v1 main_call5.v2 main_call5.v3 Host.divf,
    TRef.unary main_call5.v3 main_call5.v4 (broadcastInDim S1024x128 ![0, 1] Facts₀.bcast_S1x128_S1024x128_0_1),
    TRef.binary (.of main_v69) main_call5.v4 main_call5.v5 subf,
    TRef.binary main_call5.v5 main_call5.v5 main_call5.v6 mulf,
    TRef.unary (.of main_c_11) main_call5.v7 (sitofp .f32),
    TRef.nullary main_call5.cst_1 (constant S_ .f32 0x44800000#32),
    TRef.binary main_call5.cst_1 main_call5.v7 main_call5.v8 subf,
    TRef.nullary main_call5.cst_2 (constant S_ .f32 0x00000000#32),
    TRef.binary main_call5.v6 main_call5.cst_2 main_call5.v9 (fun x v => Host.reduceAdd x v Facts₀.reducesTo_S1024x128_S128_d0 Facts₀.h_S_),
    TRef.unary main_call5.v8 main_call5.v10 (broadcastInDim S128 ![] Facts₀.bcast_S_S128),
    TRef.binary main_call5.v9 main_call5.v10 main_call5.v11 Host.divf,
    TRef.nullary main_call5.cst_3 (constant S_ .f32 0x00000000#32),
    TRef.binary main_call5.v8 main_call5.cst_3 main_call5.v12 (cmpf .ogt),
    TRef.nullary main_call5.cst_4 (constant S_ .f32 0x7FC00000#32),
    TRef.unary main_call5.cst_4 main_call5.call0.v0 id,
    TRef.unary main_call5.call0.v0 main_call5.call0.v1 (broadcastInDim S128 ![] Facts₀.bcast_S_S128),
    TRef.ternary main_call5.v12 main_call5.v11 main_call5.call0.v1 main_call5.call0.v2 (fun p a b => select (broadcastInDim S128 ![] Facts₀.bcast_S_S128 p) a b),
    unary main_v72 main_v74 (broadcastInDim S1x128 ![1] Facts₀.bcast_S128_S1x128_1),
    unary main_v74 main_v75 (broadcastInDim S1024x128 ![0, 1] Facts₀.bcast_S1x128_S1024x128_0_1),
    binary main_v69 main_v75 main_v76 subf,
    nullary main_cst_12 (constant S_ .f32 0x3727C5AC#32),
    unary main_cst_12 main_v77 (broadcastInDim S128 ![] Facts₀.bcast_S_S128),
    binary main_v73 main_v77 main_v78 addf,
    unary main_v78 main_v79 Host.rsqrt,
    unary main_v79 main_v80 (broadcastInDim S1x128 ![1] Facts₀.bcast_S128_S1x128_1),
    unary main_v80 main_v81 (broadcastInDim S1024x128 ![0, 1] Facts₀.bcast_S1x128_S1024x128_0_1),
    binary main_v76 main_v81 main_v82 mulf,
    unary main_arg11 main_v83 (broadcastInDim S1x128 ![1] Facts₀.bcast_S128_S1x128_1),
    unary main_v83 main_v84 (broadcastInDim S1024x128 ![0, 1] Facts₀.bcast_S1x128_S1024x128_0_1),
    binary main_v82 main_v84 main_v85 mulf,
    unary main_arg12 main_v86 (broadcastInDim S1x128 ![1] Facts₀.bcast_S128_S1x128_1),
    unary main_v86 main_v87 (broadcastInDim S1024x128 ![0, 1] Facts₀.bcast_S1x128_S1024x128_0_1),
    binary main_v85 main_v87 main_v88 addf ]

/-- The readout: `main_cst_13` and the column sum `main_v89`. -/
abbrev ops8 : List (HloOp τ sig (Elt F)) :=
  [ nullary main_cst_13 (constant S_ .f32 0x00000000#32),
    binary main_v88 main_cst_13 main_v89 (fun x v => Host.reduceAdd x v Facts₀.reducesTo_S1024x128_S128_d0 Facts₀.h_S_) ]

/-- @main's operations, in order. -/
abbrev ops : List (HloOp τ sig (Elt F)) :=
  ops0 ++ (ops1 ++ (ops2 ++ (ops3 ++ (ops4 ++ (ops5 ++ (ops6 ++ (ops7 ++ ops8)))))))

/-! ## @main is the straight line of these operations

Sequencing in the free monad grafts a continuation onto every leaf, so a call's body followed by the rest of @main and
the flat list of the same operations are one chain of steps: the equations hold by computation. -/

set_option maxRecDepth 8192 in
theorem main_part0_eq (c : Dev nD) : main_part0 (F := F) c = seq (ops0 ++ (ops1 ++ (ops2 ++ (ops3 ++ ops4)))) := rfl
set_option maxRecDepth 8192 in
theorem main_part1_eq (c : Dev nD) : main_part1 (F := F) c = seq (ops5 ++ (ops6 ++ (ops7 ++ ops8))) := rfl

/-- @main is that straight line: each of its two parts is a concatenation of whole stages. -/
theorem main_eq (c : Dev nD) : main (F := F) c = seq ops := by
  have h : (ops : List (HloOp τ sig (Elt F)))
      = (ops0 ++ (ops1 ++ (ops2 ++ (ops3 ++ ops4)))) ++ (ops5 ++ (ops6 ++ (ops7 ++ ops8))) := by
    simp only [ops, List.append_assoc]
  rw [h, seq_append, ← main_part0_eq c, ← main_part1_eq c]
  rfl

theorem scopedRefs_eq : (Finset.univ.filter fun b : Ref sig .tc => b.isScoped) = ∅ := by decide
theorem scopedSems_eq : (Finset.univ.filter fun sm : SemLoc sig => sm.isScoped .tc) = ∅ := by decide

/-! ## Every operation touches TensorCore references only -/

theorem ops0_sub : (ops0 : List (HloOp τ sig (Elt F))).Forall fun op => op.bufs ⊆ tcRefs τ sig :=
  ⟨nullary_bufs_sub .., unary_bufs_sub .., reshape_bufs_sub .., nullary_bufs_sub .., nullary_bufs_sub .., unary_bufs_sub ..,
    binary_bufs_sub .., reshape_bufs_sub .., unary_bufs_sub .., reshape_bufs_sub ..⟩

theorem ops1_sub : (ops1 : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., binary_bufs_sub .., nullary_bufs_sub .., unary_bufs_sub .., unary_bufs_sub ..,
    ternary_bufs_sub .., binary_bufs_sub ..⟩

theorem ops2_sub : (ops2 : List (HloOp τ sig (Elt F))).Forall fun op => op.bufs ⊆ tcRefs τ sig :=
  ⟨binary_bufs_sub .., unary_bufs_sub .., unary_bufs_sub .., binary_bufs_sub .., nullary_bufs_sub .., unary_bufs_sub ..,
    binary_bufs_sub .., binary_bufs_sub .., unary_bufs_sub .., unary_bufs_sub .., binary_bufs_sub .., nullary_bufs_sub ..,
    unary_bufs_sub .., binary_bufs_sub ..⟩

theorem ops3_sub : (ops3 : List (HloOp τ sig (Elt F))).Forall fun op => op.bufs ⊆ tcRefs τ sig :=
  ⟨nullary_bufs_sub .., binary_bufs_sub .., nullary_bufs_sub .., unary_bufs_sub .., binary_bufs_sub .., nullary_bufs_sub ..,
    nullary_bufs_sub .., binary_bufs_sub .., unary_bufs_sub .., nullary_bufs_sub .., unary_bufs_sub .., binary_bufs_sub ..,
    unary_bufs_sub .., binary_bufs_sub .., binary_bufs_sub .., unary_bufs_sub .., nullary_bufs_sub .., binary_bufs_sub ..,
    nullary_bufs_sub .., binary_bufs_sub .., unary_bufs_sub .., binary_bufs_sub .., nullary_bufs_sub .., binary_bufs_sub ..,
    nullary_bufs_sub .., unary_bufs_sub .., unary_bufs_sub .., ternary_bufs_sub .., unary_bufs_sub .., unary_bufs_sub ..,
    binary_bufs_sub .., nullary_bufs_sub .., unary_bufs_sub .., binary_bufs_sub .., unary_bufs_sub .., unary_bufs_sub ..,
    unary_bufs_sub .., binary_bufs_sub .., unary_bufs_sub .., unary_bufs_sub .., binary_bufs_sub .., unary_bufs_sub ..,
    unary_bufs_sub .., binary_bufs_sub ..⟩

theorem ops4_sub : (ops4 : List (HloOp τ sig (Elt F))).Forall fun op => op.bufs ⊆ tcRefs τ sig :=
  ⟨nullary_bufs_sub .., unary_bufs_sub .., binary_bufs_sub ..⟩

theorem ops5_sub : (ops5 : List (HloOp τ sig (Elt F))).Forall fun op => op.bufs ⊆ tcRefs τ sig :=
  ⟨nullary_bufs_sub .., unary_bufs_sub .., binary_bufs_sub .., ternary_bufs_sub .., unary_bufs_sub .., binary_bufs_sub ..,
    nullary_bufs_sub .., unary_bufs_sub .., unary_bufs_sub .., ternary_bufs_sub .., binary_bufs_sub ..⟩

theorem ops6_sub : (ops6 : List (HloOp τ sig (Elt F))).Forall fun op => op.bufs ⊆ tcRefs τ sig :=
  ⟨binary_bufs_sub .., unary_bufs_sub .., unary_bufs_sub .., binary_bufs_sub .., nullary_bufs_sub .., unary_bufs_sub ..,
    binary_bufs_sub .., binary_bufs_sub .., unary_bufs_sub .., unary_bufs_sub .., binary_bufs_sub .., nullary_bufs_sub ..,
    unary_bufs_sub .., binary_bufs_sub ..⟩

theorem ops7_sub : (ops7 : List (HloOp τ sig (Elt F))).Forall fun op => op.bufs ⊆ tcRefs τ sig :=
  ⟨nullary_bufs_sub .., binary_bufs_sub .., nullary_bufs_sub .., unary_bufs_sub .., binary_bufs_sub .., nullary_bufs_sub ..,
    nullary_bufs_sub .., binary_bufs_sub .., unary_bufs_sub .., nullary_bufs_sub .., unary_bufs_sub .., binary_bufs_sub ..,
    unary_bufs_sub .., binary_bufs_sub .., binary_bufs_sub .., unary_bufs_sub .., nullary_bufs_sub .., binary_bufs_sub ..,
    nullary_bufs_sub .., binary_bufs_sub .., unary_bufs_sub .., binary_bufs_sub .., nullary_bufs_sub .., binary_bufs_sub ..,
    nullary_bufs_sub .., unary_bufs_sub .., unary_bufs_sub .., ternary_bufs_sub .., unary_bufs_sub .., unary_bufs_sub ..,
    binary_bufs_sub .., nullary_bufs_sub .., unary_bufs_sub .., binary_bufs_sub .., unary_bufs_sub .., unary_bufs_sub ..,
    unary_bufs_sub .., binary_bufs_sub .., unary_bufs_sub .., unary_bufs_sub .., binary_bufs_sub .., unary_bufs_sub ..,
    unary_bufs_sub .., binary_bufs_sub ..⟩

theorem ops8_sub : (ops8 : List (HloOp τ sig (Elt F))).Forall fun op => op.bufs ⊆ tcRefs τ sig :=
  ⟨nullary_bufs_sub .., binary_bufs_sub ..⟩

theorem ops_sub : (ops : List (HloOp τ sig (Elt F))).Forall fun op => op.bufs ⊆ tcRefs τ sig :=
  List.forall_iff_forall_mem.mpr fun op h => by
    simp only [ops, List.mem_append] at h
    rcases h with h | h | h | h | h | h | h | h | h
    exacts [List.forall_iff_forall_mem.mp ops0_sub op h, List.forall_iff_forall_mem.mp ops1_sub op h,
      List.forall_iff_forall_mem.mp ops2_sub op h, List.forall_iff_forall_mem.mp ops3_sub op h,
      List.forall_iff_forall_mem.mp ops4_sub op h, List.forall_iff_forall_mem.mp ops5_sub op h,
      List.forall_iff_forall_mem.mp ops6_sub op h, List.forall_iff_forall_mem.mp ops7_sub op h,
      List.forall_iff_forall_mem.mp ops8_sub op h]

/-! ## What each stage writes, and what it therefore keeps -/

/-- An operation whose one written buffer is a member of a list of references writes inside that list. -/
theorem writes_sub_of_mem {wr : List (Ref sig .tc)} {op : HloOp τ sig (Elt F)} {y : Ref sig .tc}
    (hw : op.writes = {Proc.devRef .tc y}) (hy : y ∈ wr) :
    op.writes ⊆ (wr.map (Proc.devRef (τ := τ) .tc)).toFinset := by
  rw [hw, Finset.singleton_subset_iff, List.mem_toFinset]
  exact List.mem_map_of_mem hy

/-- The references stage 0's operations write. -/
abbrev wr0 : List (Ref sig .tc) :=
  [ main_v0, main_v1, main_v2, main_v3, main_c, main_v4, main_v5, main_v6, main_v7, main_v8 ]

theorem ops0_writes : (ops0 : List (HloOp τ sig (Elt F))).Forall fun op =>
    op.writes ⊆ (wr0.map (Proc.devRef (τ := τ) .tc)).toFinset :=
  ⟨writes_sub_of_mem (nullary_writes ..) (by decide), writes_sub_of_mem (unary_writes ..) (by decide), writes_sub_of_mem (reshape_writes ..) (by decide),
    writes_sub_of_mem (nullary_writes ..) (by decide), writes_sub_of_mem (nullary_writes ..) (by decide), writes_sub_of_mem (unary_writes ..) (by decide),
    writes_sub_of_mem (binary_writes ..) (by decide), writes_sub_of_mem (reshape_writes ..) (by decide), writes_sub_of_mem (unary_writes ..) (by decide),
    writes_sub_of_mem (reshape_writes ..) (by decide)⟩

/-- A reference stage 0 does not write keeps its contents through it. -/
theorem keep0 (V : Valuation τ sig (Elt F)) (r : Ref sig .tc) (h : r ∉ wr0) :
    after ops0 V (Proc.devRef .tc r) = V (Proc.devRef .tc r) :=
  after_of_writes_sub ops0 V ops0_writes h

/-- The references stage 1's operations write. -/
abbrev wr1 : List (Ref sig .tc) :=
  [ main_c_0, main_v9, main_v10, main_c_1, main_v11, main_v12, main_v13, main_v14, main_v15, main_cst, main_v16, main_v17,
    main_v18, main_v19 ]

theorem ops1_writes : (ops1 : List (HloOp τ sig (Elt F))).Forall fun op =>
    op.writes ⊆ (wr1.map (Proc.devRef (τ := τ) .tc)).toFinset :=
  ⟨writes_sub_of_mem (nullary_writes ..) (by decide), writes_sub_of_mem (unary_writes ..) (by decide), writes_sub_of_mem (binary_writes ..) (by decide),
    writes_sub_of_mem (nullary_writes ..) (by decide), writes_sub_of_mem (unary_writes ..) (by decide), writes_sub_of_mem (binary_writes ..) (by decide),
    writes_sub_of_mem (ternary_writes ..) (by decide), writes_sub_of_mem (unary_writes ..) (by decide), writes_sub_of_mem (binary_writes ..) (by decide),
    writes_sub_of_mem (nullary_writes ..) (by decide), writes_sub_of_mem (unary_writes ..) (by decide), writes_sub_of_mem (unary_writes ..) (by decide),
    writes_sub_of_mem (ternary_writes ..) (by decide), writes_sub_of_mem (binary_writes ..) (by decide)⟩

/-- A reference stage 1 does not write keeps its contents through it. -/
theorem keep1 (V : Valuation τ sig (Elt F)) (r : Ref sig .tc) (h : r ∉ wr1) :
    after ops1 V (Proc.devRef .tc r) = V (Proc.devRef .tc r) :=
  after_of_writes_sub ops1 V ops1_writes h

/-- The references stage 2's operations write. -/
abbrev wr2 : List (Ref sig .tc) :=
  [ main_v20, main_v21, main_v22, main_v23, main_call0_cst, main_call0_v0, main_v24, main_v25, main_v26, main_v27, main_v28,
    main_call1_cst, main_call1_v0, main_v29 ]

theorem ops2_writes : (ops2 : List (HloOp τ sig (Elt F))).Forall fun op =>
    op.writes ⊆ (wr2.map (Proc.devRef (τ := τ) .tc)).toFinset :=
  ⟨writes_sub_of_mem (binary_writes ..) (by decide), writes_sub_of_mem (unary_writes ..) (by decide), writes_sub_of_mem (unary_writes ..) (by decide),
    writes_sub_of_mem (binary_writes ..) (by decide), writes_sub_of_mem (nullary_writes ..) (by decide), writes_sub_of_mem (unary_writes ..) (by decide),
    writes_sub_of_mem (binary_writes ..) (by decide), writes_sub_of_mem (binary_writes ..) (by decide), writes_sub_of_mem (unary_writes ..) (by decide),
    writes_sub_of_mem (unary_writes ..) (by decide), writes_sub_of_mem (binary_writes ..) (by decide), writes_sub_of_mem (nullary_writes ..) (by decide),
    writes_sub_of_mem (unary_writes ..) (by decide), writes_sub_of_mem (binary_writes ..) (by decide)⟩

/-- A reference stage 2 does not write keeps its contents through it. -/
theorem keep2 (V : Valuation τ sig (Elt F)) (r : Ref sig .tc) (h : r ∉ wr2) :
    after ops2 V (Proc.devRef .tc r) = V (Proc.devRef .tc r) :=
  after_of_writes_sub ops2 V ops2_writes h

/-- The references stage 3's operations write. -/
abbrev wr3 : List (Ref sig .tc) :=
  [ main_cst_2, main_v30, main_cst_3, main_v31, main_v32, main_c_4, main_call2_cst, main_call2_v0, main_call2_v1,
    main_call2_cst_0, main_call2_v2, main_call2_v3, main_call2_v4, main_call2_v5, main_call2_v6, main_call2_v7,
    main_call2_cst_1, main_call2_v8, main_call2_cst_2, main_call2_v9, main_call2_v10, main_call2_v11, main_call2_cst_3,
    main_call2_v12, main_call2_cst_4, main_call2_call0_v0, main_call2_call0_v1, main_v33, main_v34, main_v35, main_v36,
    main_cst_5, main_v37, main_v38, main_v39, main_v40, main_v41, main_v42, main_v43, main_v44, main_v45, main_v46,
    main_v47, main_v48 ]

theorem ops3_writes : (ops3 : List (HloOp τ sig (Elt F))).Forall fun op =>
    op.writes ⊆ (wr3.map (Proc.devRef (τ := τ) .tc)).toFinset :=
  ⟨writes_sub_of_mem (nullary_writes ..) (by decide), writes_sub_of_mem (binary_writes ..) (by decide), writes_sub_of_mem (nullary_writes ..) (by decide),
    writes_sub_of_mem (unary_writes ..) (by decide), writes_sub_of_mem (binary_writes ..) (by decide), writes_sub_of_mem (nullary_writes ..) (by decide),
    writes_sub_of_mem (nullary_writes ..) (by decide), writes_sub_of_mem (binary_writes ..) (by decide), writes_sub_of_mem (unary_writes ..) (by decide),
    writes_sub_of_mem (nullary_writes ..) (by decide), writes_sub_of_mem (unary_writes ..) (by decide), writes_sub_of_mem (binary_writes ..) (by decide),
    writes_sub_of_mem (unary_writes ..) (by decide), writes_sub_of_mem (binary_writes ..) (by decide), writes_sub_of_mem (binary_writes ..) (by decide),
    writes_sub_of_mem (unary_writes ..) (by decide), writes_sub_of_mem (nullary_writes ..) (by decide), writes_sub_of_mem (binary_writes ..) (by decide),
    writes_sub_of_mem (nullary_writes ..) (by decide), writes_sub_of_mem (binary_writes ..) (by decide), writes_sub_of_mem (unary_writes ..) (by decide),
    writes_sub_of_mem (binary_writes ..) (by decide), writes_sub_of_mem (nullary_writes ..) (by decide), writes_sub_of_mem (binary_writes ..) (by decide),
    writes_sub_of_mem (nullary_writes ..) (by decide), writes_sub_of_mem (unary_writes ..) (by decide), writes_sub_of_mem (unary_writes ..) (by decide),
    writes_sub_of_mem (ternary_writes ..) (by decide), writes_sub_of_mem (unary_writes ..) (by decide), writes_sub_of_mem (unary_writes ..) (by decide),
    writes_sub_of_mem (binary_writes ..) (by decide), writes_sub_of_mem (nullary_writes ..) (by decide), writes_sub_of_mem (unary_writes ..) (by decide),
    writes_sub_of_mem (binary_writes ..) (by decide), writes_sub_of_mem (unary_writes ..) (by decide), writes_sub_of_mem (unary_writes ..) (by decide),
    writes_sub_of_mem (unary_writes ..) (by decide), writes_sub_of_mem (binary_writes ..) (by decide), writes_sub_of_mem (unary_writes ..) (by decide),
    writes_sub_of_mem (unary_writes ..) (by decide), writes_sub_of_mem (binary_writes ..) (by decide), writes_sub_of_mem (unary_writes ..) (by decide),
    writes_sub_of_mem (unary_writes ..) (by decide), writes_sub_of_mem (binary_writes ..) (by decide)⟩

/-- A reference stage 3 does not write keeps its contents through it. -/
theorem keep3 (V : Valuation τ sig (Elt F)) (r : Ref sig .tc) (h : r ∉ wr3) :
    after ops3 V (Proc.devRef .tc r) = V (Proc.devRef .tc r) :=
  after_of_writes_sub ops3 V ops3_writes h

/-- The references stage 4's operations write. -/
abbrev wr4 : List (Ref sig .tc) :=
  [ main_c_6, main_v49, main_v50 ]

theorem ops4_writes : (ops4 : List (HloOp τ sig (Elt F))).Forall fun op =>
    op.writes ⊆ (wr4.map (Proc.devRef (τ := τ) .tc)).toFinset :=
  ⟨writes_sub_of_mem (nullary_writes ..) (by decide), writes_sub_of_mem (unary_writes ..) (by decide), writes_sub_of_mem (binary_writes ..) (by decide)⟩

/-- A reference stage 4 does not write keeps its contents through it. -/
theorem keep4 (V : Valuation τ sig (Elt F)) (r : Ref sig .tc) (h : r ∉ wr4) :
    after ops4 V (Proc.devRef .tc r) = V (Proc.devRef .tc r) :=
  after_of_writes_sub ops4 V ops4_writes h

/-- The references stage 5's operations write. -/
abbrev wr5 : List (Ref sig .tc) :=
  [ main_c_7, main_v51, main_v52, main_v53, main_v54, main_v55, main_cst_8, main_v56, main_v57, main_v58, main_v59 ]

theorem ops5_writes : (ops5 : List (HloOp τ sig (Elt F))).Forall fun op =>
    op.writes ⊆ (wr5.map (Proc.devRef (τ := τ) .tc)).toFinset :=
  ⟨writes_sub_of_mem (nullary_writes ..) (by decide), writes_sub_of_mem (unary_writes ..) (by decide), writes_sub_of_mem (binary_writes ..) (by decide),
    writes_sub_of_mem (ternary_writes ..) (by decide), writes_sub_of_mem (unary_writes ..) (by decide), writes_sub_of_mem (binary_writes ..) (by decide),
    writes_sub_of_mem (nullary_writes ..) (by decide), writes_sub_of_mem (unary_writes ..) (by decide), writes_sub_of_mem (unary_writes ..) (by decide),
    writes_sub_of_mem (ternary_writes ..) (by decide), writes_sub_of_mem (binary_writes ..) (by decide)⟩

/-- A reference stage 5 does not write keeps its contents through it. -/
theorem keep5 (V : Valuation τ sig (Elt F)) (r : Ref sig .tc) (h : r ∉ wr5) :
    after ops5 V (Proc.devRef .tc r) = V (Proc.devRef .tc r) :=
  after_of_writes_sub ops5 V ops5_writes h

/-- The references stage 6's operations write. -/
abbrev wr6 : List (Ref sig .tc) :=
  [ main_v60, main_v61, main_v62, main_v63, main_call3_cst, main_call3_v0, main_v64, main_v65, main_v66, main_v67, main_v68,
    main_call4_cst, main_call4_v0, main_v69 ]

theorem ops6_writes : (ops6 : List (HloOp τ sig (Elt F))).Forall fun op =>
    op.writes ⊆ (wr6.map (Proc.devRef (τ := τ) .tc)).toFinset :=
  ⟨writes_sub_of_mem (binary_writes ..) (by decide), writes_sub_of_mem (unary_writes ..) (by decide), writes_sub_of_mem (unary_writes ..) (by decide),
    writes_sub_of_mem (binary_writes ..) (by decide), writes_sub_of_mem (nullary_writes ..) (by decide), writes_sub_of_mem (unary_writes ..) (by decide),
    writes_sub_of_mem (binary_writes ..) (by decide), writes_sub_of_mem (binary_writes ..) (by decide), writes_sub_of_mem (unary_writes ..) (by decide),
    writes_sub_of_mem (unary_writes ..) (by decide), writes_sub_of_mem (binary_writes ..) (by decide), writes_sub_of_mem (nullary_writes ..) (by decide),
    writes_sub_of_mem (unary_writes ..) (by decide), writes_sub_of_mem (binary_writes ..) (by decide)⟩

/-- A reference stage 6 does not write keeps its contents through it. -/
theorem keep6 (V : Valuation τ sig (Elt F)) (r : Ref sig .tc) (h : r ∉ wr6) :
    after ops6 V (Proc.devRef .tc r) = V (Proc.devRef .tc r) :=
  after_of_writes_sub ops6 V ops6_writes h

/-- The references stage 7's operations write. -/
abbrev wr7 : List (Ref sig .tc) :=
  [ main_cst_9, main_v70, main_cst_10, main_v71, main_v72, main_c_11, main_call5_cst, main_call5_v0, main_call5_v1,
    main_call5_cst_0, main_call5_v2, main_call5_v3, main_call5_v4, main_call5_v5, main_call5_v6, main_call5_v7,
    main_call5_cst_1, main_call5_v8, main_call5_cst_2, main_call5_v9, main_call5_v10, main_call5_v11, main_call5_cst_3,
    main_call5_v12, main_call5_cst_4, main_call5_call0_v0, main_call5_call0_v1, main_v73, main_v74, main_v75, main_v76,
    main_cst_12, main_v77, main_v78, main_v79, main_v80, main_v81, main_v82, main_v83, main_v84, main_v85, main_v86,
    main_v87, main_v88 ]

theorem ops7_writes : (ops7 : List (HloOp τ sig (Elt F))).Forall fun op =>
    op.writes ⊆ (wr7.map (Proc.devRef (τ := τ) .tc)).toFinset :=
  ⟨writes_sub_of_mem (nullary_writes ..) (by decide), writes_sub_of_mem (binary_writes ..) (by decide), writes_sub_of_mem (nullary_writes ..) (by decide),
    writes_sub_of_mem (unary_writes ..) (by decide), writes_sub_of_mem (binary_writes ..) (by decide), writes_sub_of_mem (nullary_writes ..) (by decide),
    writes_sub_of_mem (nullary_writes ..) (by decide), writes_sub_of_mem (binary_writes ..) (by decide), writes_sub_of_mem (unary_writes ..) (by decide),
    writes_sub_of_mem (nullary_writes ..) (by decide), writes_sub_of_mem (unary_writes ..) (by decide), writes_sub_of_mem (binary_writes ..) (by decide),
    writes_sub_of_mem (unary_writes ..) (by decide), writes_sub_of_mem (binary_writes ..) (by decide), writes_sub_of_mem (binary_writes ..) (by decide),
    writes_sub_of_mem (unary_writes ..) (by decide), writes_sub_of_mem (nullary_writes ..) (by decide), writes_sub_of_mem (binary_writes ..) (by decide),
    writes_sub_of_mem (nullary_writes ..) (by decide), writes_sub_of_mem (binary_writes ..) (by decide), writes_sub_of_mem (unary_writes ..) (by decide),
    writes_sub_of_mem (binary_writes ..) (by decide), writes_sub_of_mem (nullary_writes ..) (by decide), writes_sub_of_mem (binary_writes ..) (by decide),
    writes_sub_of_mem (nullary_writes ..) (by decide), writes_sub_of_mem (unary_writes ..) (by decide), writes_sub_of_mem (unary_writes ..) (by decide),
    writes_sub_of_mem (ternary_writes ..) (by decide), writes_sub_of_mem (unary_writes ..) (by decide), writes_sub_of_mem (unary_writes ..) (by decide),
    writes_sub_of_mem (binary_writes ..) (by decide), writes_sub_of_mem (nullary_writes ..) (by decide), writes_sub_of_mem (unary_writes ..) (by decide),
    writes_sub_of_mem (binary_writes ..) (by decide), writes_sub_of_mem (unary_writes ..) (by decide), writes_sub_of_mem (unary_writes ..) (by decide),
    writes_sub_of_mem (unary_writes ..) (by decide), writes_sub_of_mem (binary_writes ..) (by decide), writes_sub_of_mem (unary_writes ..) (by decide),
    writes_sub_of_mem (unary_writes ..) (by decide), writes_sub_of_mem (binary_writes ..) (by decide), writes_sub_of_mem (unary_writes ..) (by decide),
    writes_sub_of_mem (unary_writes ..) (by decide), writes_sub_of_mem (binary_writes ..) (by decide)⟩

/-- A reference stage 7 does not write keeps its contents through it. -/
theorem keep7 (V : Valuation τ sig (Elt F)) (r : Ref sig .tc) (h : r ∉ wr7) :
    after ops7 V (Proc.devRef .tc r) = V (Proc.devRef .tc r) :=
  after_of_writes_sub ops7 V ops7_writes h

/-- The references stage 8's operations write. -/
abbrev wr8 : List (Ref sig .tc) :=
  [ main_cst_13, main_v89 ]

theorem ops8_writes : (ops8 : List (HloOp τ sig (Elt F))).Forall fun op =>
    op.writes ⊆ (wr8.map (Proc.devRef (τ := τ) .tc)).toFinset :=
  ⟨writes_sub_of_mem (nullary_writes ..) (by decide), writes_sub_of_mem (binary_writes ..) (by decide)⟩

/-- A reference stage 8 does not write keeps its contents through it. -/
theorem keep8 (V : Valuation τ sig (Elt F)) (r : Ref sig .tc) (h : r ∉ wr8) :
    after ops8 V (Proc.devRef .tc r) = V (Proc.devRef .tc r) :=
  after_of_writes_sub ops8 V ops8_writes h

/-! ## What each stage computes, over any incoming contents -/

/-- After the table stage `main_v2` holds the source table. -/
theorem stage0_v2 (V : Valuation τ sig (Elt F)) :
    after ops0 V (Proc.devRef .tc main_v2) = Stage.srcTbl := by
  simp only [ops0]
  after_results_simp
  rfl

/-- After the table stage `main_v8` holds the destination table. -/
theorem stage0_v8 (V : Valuation τ sig (Elt F)) :
    after ops0 V (Proc.devRef .tc main_v8) = Stage.dstTbl := by
  simp only [ops0]
  after_results_simp
  rfl

/-- The first aggregation leaves in `main_v19` the aggregate of the features over the tables it finds. -/
theorem stage1_v19 (V : Valuation τ sig (Elt F)) :
    after ops1 V (Proc.devRef .tc main_v19)
      = Stage.agg128 (V (Proc.devRef .tc main_arg0)) (V (Proc.devRef .tc main_v2)) (V (Proc.devRef .tc main_v8)) := by
  simp only [ops1]
  after_results_simp
  rfl

/-- The first perceptron leaves in `main_v29` the two rectified layers of what it finds in `main_v19`. -/
theorem stage2_v29 (V : Valuation τ sig (Elt F)) :
    after ops2 V (Proc.devRef .tc main_v29)
      = Stage.mlp1 (V (Proc.devRef .tc main_v19)) (V (Proc.devRef .tc main_arg1)) (V (Proc.devRef .tc main_arg2))
          (V (Proc.devRef .tc main_arg3)) (V (Proc.devRef .tc main_arg4)) := by
  simp only [ops2]
  after_results_simp
  rfl

/-- The first normalisation leaves in `main_v48` the normalised, scaled and shifted columns of `main_v29`. -/
theorem stage3_v48 (V : Valuation τ sig (Elt F)) :
    after ops3 V (Proc.devRef .tc main_v48)
      = Stage.bn256 (V (Proc.devRef .tc main_v29)) (V (Proc.devRef .tc main_arg5)) (V (Proc.devRef .tc main_arg6)) := by
  simp only [ops3]
  after_results_simp
  rfl

/-- The second aggregation, its head and its rest run one after the other, leaves in `main_v59` the aggregate of
    `main_v48` over the tables it finds. -/
theorem stage45_v59 (V : Valuation τ sig (Elt F)) :
    after ops5 (after ops4 V) (Proc.devRef .tc main_v59)
      = Stage.agg256 (V (Proc.devRef .tc main_v48)) (V (Proc.devRef .tc main_v2)) (V (Proc.devRef .tc main_v8)) := by
  rw [← after_append]
  simp only [ops4, ops5, List.cons_append, List.nil_append]
  after_results_simp
  rfl

/-- The second perceptron leaves in `main_v69` the two rectified layers of what it finds in `main_v59`. -/
theorem stage6_v69 (V : Valuation τ sig (Elt F)) :
    after ops6 V (Proc.devRef .tc main_v69)
      = Stage.mlp2 (V (Proc.devRef .tc main_v59)) (V (Proc.devRef .tc main_arg7)) (V (Proc.devRef .tc main_arg8))
          (V (Proc.devRef .tc main_arg9)) (V (Proc.devRef .tc main_arg10)) := by
  simp only [ops6]
  after_results_simp
  rfl

/-- The second normalisation leaves in `main_v88` the normalised, scaled and shifted columns of `main_v69`. -/
theorem stage7_v88 (V : Valuation τ sig (Elt F)) :
    after ops7 V (Proc.devRef .tc main_v88)
      = Stage.bn128 (V (Proc.devRef .tc main_v69)) (V (Proc.devRef .tc main_arg11)) (V (Proc.devRef .tc main_arg12)) := by
  simp only [ops7]
  after_results_simp
  rfl

/-- The readout leaves in `main_v89` the column sums of `main_v88`. -/
theorem stage8_v89 (V : Valuation τ sig (Elt F)) :
    after ops8 V (Proc.devRef .tc main_v89) = Stage.colsum128 (V (Proc.devRef .tc main_v88)) := by
  simp only [ops8]
  after_results_simp
  rfl

/-! ## The stages composed -/

/-- The thirteen arguments: the references no operation writes. -/
abbrev args : List (Ref sig .tc) :=
  [ main_arg0, main_arg1, main_arg2, main_arg3, main_arg4, main_arg5, main_arg6, main_arg7, main_arg8, main_arg9,
    main_arg10, main_arg11, main_arg12 ]

theorem args_not_written : ∀ r ∈ args, r ∉ wr0 ∧ r ∉ wr1 ∧ r ∉ wr2 ∧ r ∉ wr3 ∧ r ∉ wr4 ∧ r ∉ wr5 ∧ r ∉ wr6 ∧ r ∉ wr7 ∧ r ∉ wr8 := by
  decide

/-- The device's buffer contents after the first `k` stages, from contents `V0`. -/
def val1 (V0 : Valuation τ sig (Elt F)) : Valuation τ sig (Elt F) := after ops0 V0
@[inherit_doc val1] def val2 (V0 : Valuation τ sig (Elt F)) : Valuation τ sig (Elt F) := after ops1 (val1 V0)
@[inherit_doc val1] def val3 (V0 : Valuation τ sig (Elt F)) : Valuation τ sig (Elt F) := after ops2 (val2 V0)
@[inherit_doc val1] def val4 (V0 : Valuation τ sig (Elt F)) : Valuation τ sig (Elt F) := after ops3 (val3 V0)
@[inherit_doc val1] def val6 (V0 : Valuation τ sig (Elt F)) : Valuation τ sig (Elt F) := after ops5 (after ops4 (val4 V0))
@[inherit_doc val1] def val7 (V0 : Valuation τ sig (Elt F)) : Valuation τ sig (Elt F) := after ops6 (val6 V0)
@[inherit_doc val1] def val8 (V0 : Valuation τ sig (Elt F)) : Valuation τ sig (Elt F) := after ops7 (val7 V0)
@[inherit_doc val1] def val9 (V0 : Valuation τ sig (Elt F)) : Valuation τ sig (Elt F) := after ops8 (val8 V0)

/-- The whole line's fold is the last of them. -/
theorem after_ops (V0 : Valuation τ sig (Elt F)) : after ops V0 = val9 V0 := by
  simp only [ops, after_append]
  rfl

section Chain

variable (V0 : Valuation τ sig (Elt F))

/-! An argument is kept by every stage. -/

theorem val1_arg {r : Ref sig .tc} (h : r ∈ args) : val1 V0 (Proc.devRef .tc r) = V0 (Proc.devRef .tc r) :=
  keep0 V0 r (args_not_written r h).1
theorem val2_arg {r : Ref sig .tc} (h : r ∈ args) : val2 V0 (Proc.devRef .tc r) = V0 (Proc.devRef .tc r) :=
  (keep1 _ r (args_not_written r h).2.1).trans (val1_arg V0 h)
theorem val3_arg {r : Ref sig .tc} (h : r ∈ args) : val3 V0 (Proc.devRef .tc r) = V0 (Proc.devRef .tc r) :=
  (keep2 _ r (args_not_written r h).2.2.1).trans (val2_arg V0 h)
theorem val4_arg {r : Ref sig .tc} (h : r ∈ args) : val4 V0 (Proc.devRef .tc r) = V0 (Proc.devRef .tc r) :=
  (keep3 _ r (args_not_written r h).2.2.2.1).trans (val3_arg V0 h)
theorem val6_arg {r : Ref sig .tc} (h : r ∈ args) : val6 V0 (Proc.devRef .tc r) = V0 (Proc.devRef .tc r) :=
  ((keep5 _ r (args_not_written r h).2.2.2.2.2.1).trans (keep4 _ r (args_not_written r h).2.2.2.2.1)).trans (val4_arg V0 h)
theorem val7_arg {r : Ref sig .tc} (h : r ∈ args) : val7 V0 (Proc.devRef .tc r) = V0 (Proc.devRef .tc r) :=
  (keep6 _ r (args_not_written r h).2.2.2.2.2.2.1).trans (val6_arg V0 h)
theorem val8_arg {r : Ref sig .tc} (h : r ∈ args) : val8 V0 (Proc.devRef .tc r) = V0 (Proc.devRef .tc r) :=
  (keep7 _ r (args_not_written r h).2.2.2.2.2.2.2.1).trans (val7_arg V0 h)
theorem val9_arg {r : Ref sig .tc} (h : r ∈ args) : val9 V0 (Proc.devRef .tc r) = V0 (Proc.devRef .tc r) :=
  (keep8 _ r (args_not_written r h).2.2.2.2.2.2.2.2).trans (val8_arg V0 h)

/-! The two tables, made by the first stage, are kept by the three that follow (the second aggregation reads them). -/

theorem val1_v2 : val1 V0 (Proc.devRef .tc main_v2) = Stage.srcTbl := stage0_v2 V0
theorem val1_v8 : val1 V0 (Proc.devRef .tc main_v8) = Stage.dstTbl := stage0_v8 V0
theorem val2_v2 : val2 V0 (Proc.devRef .tc main_v2) = Stage.srcTbl := (keep1 _ main_v2 (by decide)).trans (val1_v2 V0)
theorem val2_v8 : val2 V0 (Proc.devRef .tc main_v8) = Stage.dstTbl := (keep1 _ main_v8 (by decide)).trans (val1_v8 V0)
theorem val3_v2 : val3 V0 (Proc.devRef .tc main_v2) = Stage.srcTbl := (keep2 _ main_v2 (by decide)).trans (val2_v2 V0)
theorem val3_v8 : val3 V0 (Proc.devRef .tc main_v8) = Stage.dstTbl := (keep2 _ main_v8 (by decide)).trans (val2_v8 V0)
theorem val4_v2 : val4 V0 (Proc.devRef .tc main_v2) = Stage.srcTbl := (keep3 _ main_v2 (by decide)).trans (val3_v2 V0)
theorem val4_v8 : val4 V0 (Proc.devRef .tc main_v8) = Stage.dstTbl := (keep3 _ main_v8 (by decide)).trans (val3_v8 V0)

/-! Each stage's result, as the stages so far composed over the arguments. -/

theorem val2_v19 : val2 V0 (Proc.devRef .tc main_v19) = Stage.agg128 (V0 (Proc.devRef .tc main_arg0)) Stage.srcTbl Stage.dstTbl := by
  unfold val2
  rw [stage1_v19, val1_arg V0 (r := main_arg0) (by decide), val1_v2, val1_v8]

theorem val3_v29 : val3 V0 (Proc.devRef .tc main_v29)
    = Stage.mlp1 (Stage.agg128 (V0 (Proc.devRef .tc main_arg0)) Stage.srcTbl Stage.dstTbl)
        (V0 (Proc.devRef .tc main_arg1)) (V0 (Proc.devRef .tc main_arg2)) (V0 (Proc.devRef .tc main_arg3)) (V0 (Proc.devRef .tc main_arg4)) := by
  unfold val3
  rw [stage2_v29, val2_v19, val2_arg V0 (r := main_arg1) (by decide), val2_arg V0 (r := main_arg2) (by decide),
    val2_arg V0 (r := main_arg3) (by decide), val2_arg V0 (r := main_arg4) (by decide)]

theorem val4_v48 : val4 V0 (Proc.devRef .tc main_v48)
    = Stage.bn256 (Stage.mlp1 (Stage.agg128 (V0 (Proc.devRef .tc main_arg0)) Stage.srcTbl Stage.dstTbl)
        (V0 (Proc.devRef .tc main_arg1)) (V0 (Proc.devRef .tc main_arg2)) (V0 (Proc.devRef .tc main_arg3)) (V0 (Proc.devRef .tc main_arg4)))
        (V0 (Proc.devRef .tc main_arg5)) (V0 (Proc.devRef .tc main_arg6)) := by
  unfold val4
  rw [stage3_v48, val3_v29, val3_arg V0 (r := main_arg5) (by decide), val3_arg V0 (r := main_arg6) (by decide)]

theorem val6_v59 : val6 V0 (Proc.devRef .tc main_v59)
    = Stage.agg256 (Stage.bn256 (Stage.mlp1 (Stage.agg128 (V0 (Proc.devRef .tc main_arg0)) Stage.srcTbl Stage.dstTbl)
        (V0 (Proc.devRef .tc main_arg1)) (V0 (Proc.devRef .tc main_arg2)) (V0 (Proc.devRef .tc main_arg3)) (V0 (Proc.devRef .tc main_arg4)))
        (V0 (Proc.devRef .tc main_arg5)) (V0 (Proc.devRef .tc main_arg6))) Stage.srcTbl Stage.dstTbl := by
  unfold val6
  rw [stage45_v59, val4_v48, val4_v2, val4_v8]

theorem val7_v69 : val7 V0 (Proc.devRef .tc main_v69)
    = Stage.mlp2 (Stage.agg256 (Stage.bn256 (Stage.mlp1 (Stage.agg128 (V0 (Proc.devRef .tc main_arg0)) Stage.srcTbl Stage.dstTbl)
        (V0 (Proc.devRef .tc main_arg1)) (V0 (Proc.devRef .tc main_arg2)) (V0 (Proc.devRef .tc main_arg3)) (V0 (Proc.devRef .tc main_arg4)))
        (V0 (Proc.devRef .tc main_arg5)) (V0 (Proc.devRef .tc main_arg6))) Stage.srcTbl Stage.dstTbl)
        (V0 (Proc.devRef .tc main_arg7)) (V0 (Proc.devRef .tc main_arg8)) (V0 (Proc.devRef .tc main_arg9)) (V0 (Proc.devRef .tc main_arg10)) := by
  unfold val7
  rw [stage6_v69, val6_v59, val6_arg V0 (r := main_arg7) (by decide), val6_arg V0 (r := main_arg8) (by decide),
    val6_arg V0 (r := main_arg9) (by decide), val6_arg V0 (r := main_arg10) (by decide)]

theorem val8_v88 : val8 V0 (Proc.devRef .tc main_v88)
    = Stage.bn128 (Stage.mlp2 (Stage.agg256 (Stage.bn256 (Stage.mlp1 (Stage.agg128 (V0 (Proc.devRef .tc main_arg0)) Stage.srcTbl Stage.dstTbl)
        (V0 (Proc.devRef .tc main_arg1)) (V0 (Proc.devRef .tc main_arg2)) (V0 (Proc.devRef .tc main_arg3)) (V0 (Proc.devRef .tc main_arg4)))
        (V0 (Proc.devRef .tc main_arg5)) (V0 (Proc.devRef .tc main_arg6))) Stage.srcTbl Stage.dstTbl)
        (V0 (Proc.devRef .tc main_arg7)) (V0 (Proc.devRef .tc main_arg8)) (V0 (Proc.devRef .tc main_arg9)) (V0 (Proc.devRef .tc main_arg10)))
        (V0 (Proc.devRef .tc main_arg11)) (V0 (Proc.devRef .tc main_arg12)) := by
  unfold val8
  rw [stage7_v88, val7_v69, val7_arg V0 (r := main_arg11) (by decide), val7_arg V0 (r := main_arg12) (by decide)]

/-- The result buffer ends at the stages' composition of the thirteen arguments. -/
theorem val9_v89 : val9 V0 (Proc.devRef .tc main_v89)
    = Stage.refComp (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6))
        (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) := by
  unfold val9
  rw [stage8_v89, val8_v88]
  rfl

end Chain

/-! ## The run -/

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v89)
        = Stage.refComp (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) := by
  refine (θ_run defs _ _).mono (fun _ h c => ?_)
    (run_seq scopedRefs_eq scopedSems_eq defs main (fun _ => ops) main_eq (fun _ => ops_sub) m ρ)
  have arg : ∀ r ∈ args, after ops (launchContents m c) (Proc.devRef .tc r) = m ((c.tc : Thread nD τ).loc r) := fun r hr => by
    rw [after_ops]
    exact val9_arg (launchContents m c) hr
  refine ⟨(h c main_v89).trans ?_, (h c main_arg0).trans (arg _ (by decide)), (h c main_arg1).trans (arg _ (by decide)),
    (h c main_arg2).trans (arg _ (by decide)), (h c main_arg3).trans (arg _ (by decide)),
    (h c main_arg4).trans (arg _ (by decide)), (h c main_arg5).trans (arg _ (by decide)),
    (h c main_arg6).trans (arg _ (by decide)), (h c main_arg7).trans (arg _ (by decide)),
    (h c main_arg8).trans (arg _ (by decide)), (h c main_arg9).trans (arg _ (by decide)),
    (h c main_arg10).trans (arg _ (by decide)), (h c main_arg11).trans (arg _ (by decide)),
    (h c main_arg12).trans (arg _ (by decide))⟩
  simp only [after_ops]
  exact val9_v89 (launchContents m c)

end Cert.ReferenceIdeal.HandRun

end
-- ==== Proof.AggLaw.lean ====
/-
  The aggregation law. The edge list holds one edge from every row `i` to every row `j ≥ 1`, so gathering the
  source rows and adding each into its destination row leaves, in every row but row 0, the sum of ALL rows, and
  in row 0 nothing: the reference's gather-then-scatter is the kernel's mask times the column sums.
-/
import proofs.«115119_j47768626266491_1_alg».proof.Proof.RefStages
import proofs.«115119_j47768626266491_1_alg».proof.Proof.KerStages
import proofs.«115119_j47768626266491_1_alg».proof.Proof.Gen.ReferenceIdeal
import Idealize.ShloMosaic.PureOps.Ideal.Laws
import Idealize.ShloMosaic.Lib.ValueIdx
import Idealize.ShloMosaic.Lib.ValueLayout
import Idealize.ShloMosaic.Lib.StableHlo.Predicate

noncomputable section

namespace Cert.AggLaw

open Idealize.ShloMosaic Idealize.ShloMosaic.ValueIdx
open scoped BigOperators

/-! ## A gather of rows and a scatter of rows, read at an index -/

section Rows
variable {N E C : Nat}

/-- The dimension numbers of a gather of whole rows: operand `[N, C]`, one start index per result row
    (`[E, 1]`), result `[E, C]`. -/
abbrev rowGather (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The dimension numbers of a scatter of whole rows: operand `[N, C]`, one row index per update row
    (`[E, 1]`), updates `[E, C]`. -/
abbrev rowScatter (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- The gather at `(e, f)` is the operand at row `idx (e, 0)`, read signed and clamped into `[0, N − 1]`,
    column `f`. -/
theorem rowGather_apply {α : Type} {w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (f : Fin C) :
    Host.gather (rowGather N E C wf) x idx (ix2 e f)
      = x (ix2 ⟨min (idx (ix2 e (0 : Fin 1))).toInt.toNat (N - 1), by omega⟩ f) := by
  unfold Host.gather
  congr 1
  funext a
  refine Fin.ext ?_
  match a with
  | ⟨0, _⟩ =>
    show (rowGather N E C wf).start (ix2 e f) idx 0 + (rowGather N E C wf).batchCoord (ix2 e f) 0
        + (rowGather N E C wf).offCoord (ix2 e f) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather N E C wf).startIndexMap from List.mem_singleton.mpr rfl)]
    have hsi : (rowGather N E C wf).siIdx (ix2 e f) ⟨List.idxOf (0 : Fin 2) (rowGather N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGather N E C wf).start (ix2 e f) idx 1 + (rowGather N E C wf).batchCoord (ix2 e f) 1
        + (rowGather N E C wf).offCoord (ix2 e f) 1 = _
    rw [GatherDims.batchCoord_eq_zero _ _ _ List.not_mem_nil]
    unfold GatherDims.start
    rw [dif_neg (show (1 : Fin 2) ∉ (rowGather N E C wf).startIndexMap from
      fun h => Nat.one_ne_zero (congrArg Fin.val (List.mem_singleton.mp h)))]
    simp only [Nat.add_zero, Nat.zero_add]
    rfl

end Rows

section RowsScatter
variable {N E C : Nat}

/-- An update at `j` lands on the result index `i` exactly when its row index, read signed, is `i`'s row and the two
    columns agree; a row index outside `[0, N)` lands nowhere. -/
theorem rowScatter_resultIdx?_eq_some_iff {w : Nat}
    (wf : ScatterDims.WF ⟨2, ![N, C]⟩ ⟨2, ![E, 1]⟩ ⟨2, ![E, C]⟩ [1] [0] [0] 1)
    (idx : IVec ⟨2, ![E, 1]⟩ w) (j : (⟨2, ![E, C]⟩ : Shape).Idx) (i : (⟨2, ![N, C]⟩ : Shape).Idx) :
    (rowScatter N E C wf).resultIdx? j idx = some i
      ↔ (idx (ix2 (j 0) (0 : Fin 1))).toInt = ((i 0).val : Int) ∧ (j 1).val = (i 1).val := by
  have hs0 : (rowScatter N E C wf).start j idx 0 = (idx (ix2 (j 0) (0 : Fin 1))).toInt := by
    unfold ScatterDims.start
    rw [dif_pos (show (0 : Fin 2) ∈ (rowScatter N E C wf).scatterDimsToOperandDims from List.mem_singleton.mpr rfl)]
    congr 2
    funext b; refine Fin.ext ?_
    match b with
    | ⟨0, _⟩ => rfl
    | ⟨1, _⟩ => rfl
  have hs1 : (rowScatter N E C wf).start j idx 1 = 0 := by
    unfold ScatterDims.start
    rw [dif_neg (fun h => Nat.one_ne_zero (congrArg Fin.val (List.mem_singleton.mp h)))]
  have hw0 : (rowScatter N E C wf).window j 0 = 0 := by
    unfold ScatterDims.window
    rw [dif_neg (fun h => by simp [ScatterDims.sKept, Shape.kept] at h)]
  have hw1 : (rowScatter N E C wf).window j 1 = (j 1).val := by
    unfold ScatterDims.window
    rw [dif_pos (by simp [ScatterDims.sKept, Shape.kept])]
    rfl
  have hi0 := idx2_lt0 i
  have hi1 := idx2_lt1 i
  have hj1 := idx2_lt1 j
  unfold ScatterDims.resultIdx?
  constructor
  · intro h
    split at h
    · next hall =>
      have hf := Option.some.inj h
      have h0 : ((rowScatter N E C wf).start j idx 0 + (rowScatter N E C wf).window j 0).toNat = (i 0).val :=
        congrArg (fun g : (⟨2, ![N, C]⟩ : Shape).Idx => (g 0).val) hf
      have h1 : ((rowScatter N E C wf).start j idx 1 + (rowScatter N E C wf).window j 1).toNat = (i 1).val :=
        congrArg (fun g : (⟨2, ![N, C]⟩ : Shape).Idx => (g 1).val) hf
      have ha := (hall 0).1
      rw [hs0, hw0] at h0 ha
      rw [hs1, hw1] at h1
      omega
    · exact absurd h (by simp)
  · rintro ⟨h0, h1⟩
    have hall : ∀ a, 0 ≤ (rowScatter N E C wf).start j idx a + (rowScatter N E C wf).window j a
        ∧ (rowScatter N E C wf).start j idx a + (rowScatter N E C wf).window j a < ((⟨2, ![N, C]⟩ : Shape).size a : Int) := by
      intro a
      match a with
      | ⟨0, _⟩ =>
        show 0 ≤ (rowScatter N E C wf).start j idx 0 + (rowScatter N E C wf).window j 0
          ∧ (rowScatter N E C wf).start j idx 0 + (rowScatter N E C wf).window j 0 < (N : Int)
        rw [hs0, hw0]; omega
      | ⟨1, _⟩ =>
        show 0 ≤ (rowScatter N E C wf).start j idx 1 + (rowScatter N E C wf).window j 1
          ∧ (rowScatter N E C wf).start j idx 1 + (rowScatter N E C wf).window j 1 < (C : Int)
        rw [hs1, hw1]; omega
    rw [dif_pos hall]
    congr 1
    funext a
    refine Fin.ext ?_
    match a with
    | ⟨0, _⟩ =>
      show ((rowScatter N E C wf).start j idx 0 + (rowScatter N E C wf).window j 0).toNat = (i 0).val
      rw [hs0, hw0]; omega
    | ⟨1, _⟩ =>
      show ((rowScatter N E C wf).start j idx 1 + (rowScatter N E C wf).window j 1).toNat = (i 1).val
      rw [hs1, hw1]; omega

end RowsScatter

/-! ## The edge tables at an edge -/

section Tables
open Cert.ReferenceIdeal.Stage Idealize.ShloMosaic.StableHlo.Predicate

theorem ix2_zero {n0 n1 : Nat} (a : Fin n0) (b : Fin n1) : ix2 a b 0 = a := rfl
theorem ix2_one {n0 n1 : Nat} (a : Fin n0) (b : Fin n1) : ix2 a b 1 = b := rfl

/-- Edge `e` leaves row `e / 1023`. -/
theorem srcTbl_apply (e : Fin 1047552) : srcTbl (ix1 e) = BitVec.ofNat 32 (e.val / 1023) := by
  unfold srcTbl
  refine (shapeCast_apply _ _ (ix1 e)
    (ix2 (⟨e.val / 1023, by omega⟩ : Fin 1024) (⟨e.val % 1023, by omega⟩ : Fin 1023)) ?_).trans ?_
  · rw [Shape.rowMajor_val_two, Shape.rowMajor_val_one]
    show e.val / 1023 * 1023 + e.val % 1023 = e.val
    omega
  · refine (broadcastInDim_apply _ _ _ _ (ix1 (⟨e.val / 1023, by omega⟩ : Fin 1024)) ?_).trans ?_
    · intro a
      match a with
      | ⟨0, _⟩ => rfl
    · rfl

/-- Edge `e` enters row `1 + e % 1023`. -/
theorem dstTbl_apply (e : Fin 1047552) : dstTbl (ix1 e) = BitVec.ofNat 32 (1 + e.val % 1023) := by
  unfold dstTbl
  refine (shapeCast_apply _ _ (ix1 e)
    (ix2 (⟨e.val / 1023, by omega⟩ : Fin 1024) (⟨e.val % 1023, by omega⟩ : Fin 1023)) ?_).trans ?_
  · rw [Shape.rowMajor_val_two, Shape.rowMajor_val_one]
    show e.val / 1023 * 1023 + e.val % 1023 = e.val
    omega
  · refine (broadcastInDim_apply _ _ _ _ (ix2 (0 : Fin 1) (⟨e.val % 1023, by omega⟩ : Fin 1023)) ?_).trans ?_
    · intro a
      match a with
      | ⟨0, _⟩ => rfl
      | ⟨1, _⟩ => rfl
    · refine (shapeCast_a_1a_apply _ _ _ _).trans ?_
      show (1#32 + BitVec.ofNat 32 (e.val % 1023)) = _
      rw [BitVec.ofNat_add]

/-- The gather's start index of edge `e`, read signed, is its source row: the wrap of a negative index is never taken. -/
theorem srcIdx_toInt (e : Fin 1047552) :
    (srcIdx srcTbl (ix2 e (0 : Fin 1))).toInt = ((e.val / 1023 : Nat) : Int) := by
  unfold srcIdx
  rw [broadcastInDim_apply _ _ _ _ (ix1 e) (fun a => match a with | ⟨0, _⟩ => rfl)]
  show (Scalar.select (IntOp.cmpi .slt (srcTbl (ix1 e)) 0#32) (IntOp.addi (srcTbl (ix1 e)) 1024#32)
    (srcTbl (ix1 e))).toInt = _
  rw [srcTbl_apply]
  have hlt : (BitVec.ofNat 32 (e.val / 1023)).toNat < 2 ^ 31 := by
    rw [BitVec.toNat_ofNat]; omega
  have hc : ¬ IntOp.cmpi .slt (BitVec.ofNat 32 (e.val / 1023)) 0#32 = 1#1 := by
    rw [slt_iff_toNat hlt (by decide)]
    exact Nat.not_lt_zero _
  rw [eq_zero_of_ne_one hc, select_zero]
  exact toInt_ofNat_small _ (by omega)

/-- The scatter's index of edge `e`, read signed, is its destination row. -/
theorem dstIdx_toInt (e : Fin 1047552) :
    (dstIdx dstTbl (ix2 e (0 : Fin 1))).toInt = ((1 + e.val % 1023 : Nat) : Int) := by
  unfold dstIdx
  rw [broadcastInDim_apply _ _ _ _ (ix1 e) (fun a => match a with | ⟨0, _⟩ => rfl)]
  rw [dstTbl_apply]
  exact toInt_ofNat_small _ (by omega)

end Tables

/-! ## The gather-then-scatter over the complete edge list: every row but row 0 receives every row -/

section Sum
variable {C : Nat}

/-- With the start index of edge `e` its source row `e / 1023` and its scatter index its destination row
    `1 + e % 1023`, the rows gathered and then added into a zero array give, at `(r, f)`, nothing on row 0 and the
    sum of column `f` over all 1024 rows on every other row: the edges into row `r ≥ 1` are
    `e = 1023 k + (r − 1)`, one from each source row `k`. -/
theorem scatter_gather_apply
    (gwf : GatherDims.WF ⟨2, ![1024, C]⟩ ⟨2, ![1047552, 1]⟩ ⟨2, ![1047552, C]⟩ [1] [0] [] [0] [] 1 ![1, C])
    (swf : ScatterDims.WF ⟨2, ![1024, C]⟩ ⟨2, ![1047552, 1]⟩ ⟨2, ![1047552, C]⟩ [1] [0] [0] 1)
    (x z : FVec Ideal ⟨2, ![1024, C]⟩ .f32) (hz : ∀ i, z i = 0)
    (sidx didx : IVec ⟨2, ![1047552, 1]⟩ 32)
    (hs : ∀ e : Fin 1047552, (sidx (ix2 e (0 : Fin 1))).toInt = ((e.val / 1023 : Nat) : Int))
    (hd : ∀ e : Fin 1047552, (didx (ix2 e (0 : Fin 1))).toInt = ((1 + e.val % 1023 : Nat) : Int))
    (r : Fin 1024) (f : Fin C) :
    Host.scatterAdd (rowScatter 1024 1047552 C swf) z didx
        (Host.gather (rowGather 1024 1047552 C gwf) x sidx) (ix2 r f)
      = if r.val = 0 then 0 else ∑ k : Fin 1024, x (ix2 k f) := by
  -- the gathered row of edge `j 0` is the source row
  have hupd : ∀ j : (⟨2, ![1047552, C]⟩ : Shape).Idx, Host.gather (rowGather 1024 1047552 C gwf) x sidx j
      = x (ix2 (⟨(j 0).val / 1023, by have := idx2_lt0 j; omega⟩ : Fin 1024) (j 1)) := by
    intro j
    refine (congrArg (Host.gather (rowGather 1024 1047552 C gwf) x sidx) (eq_ix2 j)).trans ?_
    refine (rowGather_apply (by decide) gwf x sidx (j 0) (j 1)).trans ?_
    refine congrArg x (funext fun a => Fin.ext ?_)
    match a with
    | ⟨0, _⟩ =>
      show min (sidx (ix2 (j 0) (0 : Fin 1))).toInt.toNat (1024 - 1) = (j 0).val / 1023
      have := idx2_lt0 j
      rw [hs (j 0)]; omega
    | ⟨1, _⟩ => rfl
  -- an update lands on `(r, f)` exactly when its edge enters row `r` and its column is `f`
  have hfilt : ∀ j : (⟨2, ![1047552, C]⟩ : Shape).Idx,
      ((rowScatter 1024 1047552 C swf).resultIdx? j didx = some (ix2 r f))
        ↔ (1 + (j 0).val % 1023 = r.val ∧ (j 1).val = f.val) := by
    intro j
    rw [rowScatter_resultIdx?_eq_some_iff, hd (j 0)]
    show ((1 + (j 0).val % 1023 : Nat) : Int) = (r.val : Int) ∧ (j 1).val = f.val ↔ _
    constructor <;> rintro ⟨h0, h1⟩ <;> exact ⟨by omega, h1⟩
  unfold Host.scatterAdd
  rw [Ideal.hostScatterAdd_def]
  unfold Ideal.hostScatterAdd
  show z (ix2 r f) + _ = _
  rw [hz, zero_add]
  by_cases hr : r.val = 0
  · rw [if_pos hr]
    refine Finset.sum_eq_zero fun j hj => ?_
    have := (hfilt j).1 (Finset.mem_filter.1 hj).2
    omega
  · rw [if_neg hr]
    refine Finset.sum_nbij' (fun j => (⟨(j 0).val / 1023, by have := idx2_lt0 j; omega⟩ : Fin 1024))
      (fun k => ix2 (⟨1023 * k.val + (r.val - 1), by omega⟩ : Fin 1047552) f) ?_ ?_ ?_ ?_ ?_
    · intro j _
      exact Finset.mem_univ _
    · intro k _
      refine Finset.mem_filter.2 ⟨Finset.mem_univ _, (hfilt _).2 ⟨?_, rfl⟩⟩
      show 1 + (1023 * k.val + (r.val - 1)) % 1023 = r.val
      omega
    · intro j hj
      have hj' := (hfilt j).1 (Finset.mem_filter.1 hj).2
      have := idx2_lt0 j
      refine funext fun a => Fin.ext ?_
      match a with
      | ⟨0, _⟩ =>
        show 1023 * ((j 0).val / 1023) + (r.val - 1) = (j 0).val
        omega
      | ⟨1, _⟩ =>
        show f.val = (j 1).val
        omega
    · intro k _
      refine Fin.ext ?_
      show (1023 * k.val + (r.val - 1)) / 1023 = k.val
      omega
    · intro j hj
      have hj' := (hfilt j).1 (Finset.mem_filter.1 hj).2
      rw [hupd]
      refine congrArg x (funext fun a => Fin.ext ?_)
      match a with
      | ⟨0, _⟩ => rfl
      | ⟨1, _⟩ =>
        show (j 1).val = f.val
        exact hj'.2

end Sum

/-! ## The kernel's side: the row mask and the column sums laid along every row -/

section Kernel
variable {C : Nat}
open Idealize.ShloMosaic.StableHlo.Predicate

/-- The column sums as a row, laid along every row, read at `(r, f)`: the sum of column `f` over all rows. -/
theorem rowsum_apply (x : FVec Ideal ⟨2, ![1024, C]⟩ .f32) (acc : BitVec FTy.f32.bits)
    (hred : (⟨2, ![1024, C]⟩ : Shape).Reduces [0] ⟨1, ![C]⟩) (hφ : FKind.Formats .f32)
    (hacc : acc = FKind.add.neutral .f32 hφ)
    (hsc : (⟨1, ![C]⟩ : Shape).ShapeCasts ⟨2, ![1, C]⟩) (hb : (⟨2, ![1, C]⟩ : Shape).Broadcasts ⟨2, ![1024, C]⟩)
    (r : Fin 1024) (f : Fin C) :
    broadcastTo ⟨2, ![1024, C]⟩
        (shapeCast ⟨2, ![1, C]⟩ (multiReduction .add [0] ⟨1, ![C]⟩ x acc hred hφ hacc) hsc) hb (ix2 r f)
      = ∑ k : Fin 1024, x (ix2 k f) := by
  rw [broadcastTo_1b_ab_apply, shapeCast_a_1a_apply, Ideal.multiReduction_add_single]
  refine Finset.sum_congr rfl fun k _ => congrArg x (funext fun a => Fin.ext ?_)
  match a with
  | ⟨0, _⟩ => rfl
  | ⟨1, _⟩ => rfl

/-- The row mask: `0` on row 0 and `1` on every other row. -/
theorem mask_apply (r : Fin 1024) (u : Fin 1) :
    Cert.KernelIdeal.Stage.mask (F := Ideal) (ix2 r u) = if r.val = 0 then 0 else 1 := by
  unfold Cert.KernelIdeal.Stage.mask Cert.KernelIdeal.Gen.k0_pay2
  show ((((IntOp.cmpi .ne (iota .tc _ 32 [0] _ (ix2 r u)) 0#32).setWidth 32).toInt : ℝ) : EReal) = _
  rw [iota_single_apply]
  show ((((IntOp.cmpi .ne (BitVec.ofNat 32 r.val) 0#32).setWidth 32).toInt : ℝ) : EReal) = _
  by_cases hr : r.val = 0
  · rw [if_pos hr, hr]
    have h : IntOp.cmpi .ne (BitVec.ofNat 32 0) 0#32 = 0#1 := by decide
    rw [h]
    have h' : ((0#1 : BitVec 1).setWidth 32).toInt = 0 := by decide
    rw [h']
    simp
  · rw [if_neg hr]
    have h : IntOp.cmpi .ne (BitVec.ofNat 32 r.val) 0#32 = 1#1 := by
      unfold IntOp.cmpi
      rw [ofBool_eq_one_iff, bne_iff_ne]
      intro he
      have := congrArg BitVec.toNat he
      rw [BitVec.toNat_ofNat, BitVec.toNat_ofNat] at this
      omega
    rw [h]
    have h' : ((1#1 : BitVec 1).setWidth 32).toInt = 1 := by decide
    rw [h']
    simp

end Kernel

/-! ## The two aggregations -/

theorem agg128_eq (x : FVec Ideal Cert.KernelIdeal.S1024x128 .f32) :
    Cert.ReferenceIdeal.Stage.agg128 (F := Ideal) x Cert.ReferenceIdeal.Stage.srcTbl Cert.ReferenceIdeal.Stage.dstTbl
      = Cert.KernelIdeal.Stage.agg128 (F := Ideal) Cert.KernelIdeal.Stage.mask x := by
  funext j
  obtain ⟨r, f, rfl⟩ : ∃ (r : Fin 1024) (f : Fin 128), j = ix2 r f := ⟨j 0, j 1, eq_ix2 j⟩
  unfold Cert.ReferenceIdeal.Stage.agg128 Cert.KernelIdeal.Stage.agg128 Cert.KernelIdeal.Stage.row128
    Cert.KernelIdeal.Stage.colsum128
  rw [addf_apply, addf_apply, mulf_apply]
  refine congrArg (fun t => x (ix2 r f) + t) ?_
  refine (scatter_gather_apply (C := 128) _ _ x _ (fun _ => Ideal.ofBits_zero_f32) _ _
    srcIdx_toInt dstIdx_toInt r f).trans ?_
  refine Eq.symm (Eq.trans (congrArg₂ (fun a b : EReal => a * b)
    (?_ : _ = if r.val = 0 then (0 : EReal) else 1) (rowsum_apply (C := 128) x _ _ _ _ _ _ r f)) ?_)
  · rw [broadcastTo_apply _ _ (ix2 r f) (ix2 r (0 : Fin 1))
      (fun a => match a with | ⟨0, _⟩ => rfl | ⟨1, _⟩ => rfl), mask_apply]
  · by_cases hr : r.val = 0
    · rw [if_pos hr, if_pos hr, zero_mul]
    · rw [if_neg hr, if_neg hr, one_mul]

theorem agg256_eq (x : FVec Ideal Cert.KernelIdeal.S1024x256 .f32) :
    Cert.ReferenceIdeal.Stage.agg256 (F := Ideal) x Cert.ReferenceIdeal.Stage.srcTbl Cert.ReferenceIdeal.Stage.dstTbl
      = Cert.KernelIdeal.Stage.agg256 (F := Ideal) Cert.KernelIdeal.Stage.mask x := by
  funext j
  obtain ⟨r, f, rfl⟩ : ∃ (r : Fin 1024) (f : Fin 256), j = ix2 r f := ⟨j 0, j 1, eq_ix2 j⟩
  unfold Cert.ReferenceIdeal.Stage.agg256 Cert.KernelIdeal.Stage.agg256 Cert.KernelIdeal.Stage.row256
    Cert.KernelIdeal.Stage.colsum256
  rw [addf_apply, addf_apply, mulf_apply]
  refine congrArg (fun t => x (ix2 r f) + t) ?_
  refine (scatter_gather_apply (C := 256) _ _ x _ (fun _ => Ideal.ofBits_zero_f32) _ _
    srcIdx_toInt dstIdx_toInt r f).trans ?_
  refine Eq.symm (Eq.trans (congrArg₂ (fun a b : EReal => a * b)
    (?_ : _ = if r.val = 0 then (0 : EReal) else 1) (rowsum_apply (C := 256) x _ _ _ _ _ _ r f)) ?_)
  · rw [broadcastTo_apply _ _ (ix2 r f) (ix2 r (0 : Fin 1))
      (fun a => match a with | ⟨0, _⟩ => rfl | ⟨1, _⟩ => rfl), mask_apply]
  · by_cases hr : r.val = 0
    · rw [if_pos hr, if_pos hr, zero_mul]
    · rw [if_neg hr, if_neg hr, one_mul]

end Cert.AggLaw

end
-- ==== Proof.StageEq.lean ====
/-
  Stage by stage, at the extended reals, the reference's perceptron, batch normalisation and readout are the
  kernel's: a host contraction is the matrix product into a zero accumulator of the same operands (narrowing to
  bf16 is the identity there), a host sum along the rows is the lane reduction, a quotient is a quotient, and the
  variance's guarded divisor `1024 − 0` is `1024`, which is positive.
-/
import proofs.«115119_j47768626266491_1_alg».proof.Proof.RefStages
import proofs.«115119_j47768626266491_1_alg».proof.Proof.KerStages
import proofs.«115119_j47768626266491_1_alg».proof.Proof.Gen.ReferenceIdeal
import Idealize.ShloMosaic.PureOps.Ideal.Laws
import Idealize.ShloMosaic.Lib.ValueIdx
import Idealize.ShloMosaic.Lib.ValueLayout
import Idealize.ShloMosaic.Lib.IdealHost
import Idealize.ShloMosaic.Lib.KernelVsHost

noncomputable section

namespace Cert.StageEq

open Idealize.ShloMosaic Idealize.ShloMosaic.ValueIdx

/-! ## Matrix products -/

/-- The matrix product of operands narrowed to bf16, accumulated into the zero splat, is the host contraction of the
    operands themselves: narrowing is the identity on extended reals, and both products read at an index as the same
    sum over the contraction index. -/
theorem matmul_truncf_eq_dotGeneral {sl sr so : Shape} (d : DotDims sl sr so) (a : FVec Ideal sl .f32)
    (b : FVec Ideal sr .f32) (ha hb : FTy.bits .bf16 < FTy.bits .f32) :
    matmul d none (truncf .bf16 a ha) (truncf .bf16 b hb) (constant so .f32 0x00000000#32)
      = Host.dotGeneral d none a b := by
  funext j
  show FloatOps.matmul d none (truncf .bf16 a ha) (truncf .bf16 b hb) (constant so .f32 0x00000000#32) j
    = FloatOps.dotGeneral d none .single a b j
  rw [Ideal.matmul_constant_zero_apply, Ideal.dotGeneral_apply]
  rfl

/-- The two programs' dimension numbers are the same records: their fields are the same literals. -/
theorem dot_128_256_eq : Cert.ReferenceIdeal.dot_S1024x128_S128x256_S1024x256_1_0_0_1_n_n
    = Cert.KernelIdeal.dot_S1024x128_S128x256_S1024x256_1_0_0_1_n_n := rfl
theorem dot_256_256_eq : Cert.ReferenceIdeal.dot_S1024x256_S256x256_S1024x256_1_0_0_1_n_n
    = Cert.KernelIdeal.dot_S1024x256_S256x256_S1024x256_1_0_0_1_n_n := rfl
theorem dot_256_128_eq : Cert.ReferenceIdeal.dot_S1024x256_S256x128_S1024x128_1_0_0_1_n_n
    = Cert.KernelIdeal.dot_S1024x256_S256x128_S1024x128_1_0_0_1_n_n := rfl

/-! ## Column sums -/

/-- The host's sum down the rows from the zero scalar is the lane reduction, whose neutral accumulator drops out. -/
theorem colsum256_host_eq_lane (h : FVec Ideal Cert.KernelIdeal.S1024x256 .f32) :
    Cert.ReferenceIdeal.Stage.colsum256 (F := Ideal) h = Cert.KernelIdeal.Stage.colsum256 (F := Ideal) h := by
  unfold Cert.ReferenceIdeal.Stage.colsum256 Cert.KernelIdeal.Stage.colsum256
  exact (multiReduction_add_eq_hostReduceAdd h 0x00000000#32 _ (.inl rfl) rfl _ _ _ Ideal.ofBits_zero_f32).symm

theorem colsum128_host_eq_lane (h : FVec Ideal Cert.KernelIdeal.S1024x128 .f32) :
    Cert.ReferenceIdeal.Stage.colsum128 (F := Ideal) h = Cert.KernelIdeal.Stage.colsum128 (F := Ideal) h := by
  unfold Cert.ReferenceIdeal.Stage.colsum128 Cert.KernelIdeal.Stage.colsum128
  exact (multiReduction_add_eq_hostReduceAdd h 0x00000000#32 _ (.inl rfl) rfl _ _ _ Ideal.ofBits_zero_f32).symm

/-! ## A vector laid along every row, read at an index -/

section Rows
variable {α : Type}

/-- A vector of `n` entries as a one-row matrix, by `broadcast_in_dim` along axis 1, reads at `(u, c)` the vector at `c`. -/
theorem bcastVecRow_apply {n : Nat} (h₁ : (⟨1, ![n]⟩ : Shape).BroadcastsInDim ⟨2, ![1, n]⟩ ![1])
    (b : (⟨1, ![n]⟩ : Shape).Idx → α) (u : Fin 1) (c : Fin n) :
    broadcastInDim ⟨2, ![1, n]⟩ ![1] h₁ b (ix2 u c) = b (ix1 c) := by
  refine broadcastInDim_apply ![1] h₁ b (ix2 u c) (ix1 c) fun a => ?_
  match a with
  | ⟨0, _⟩ =>
    show c.val = if n = 1 then 0 else c.val
    split
    · have := c.isLt; omega
    · rfl

end Rows

/-- The reference's row of 256, read at `(r, c)`, is the vector at `c`. -/
theorem ref_row256_apply (b : FVec Ideal Cert.KernelIdeal.S256 .f32) (r : Fin 1024) (c : Fin 256) :
    Cert.ReferenceIdeal.Stage.row256 (F := Ideal) b (ix2 r c) = b (ix1 c) := by
  unfold Cert.ReferenceIdeal.Stage.row256
  rw [broadcastInDim_oneRow_apply, bcastVecRow_apply]

/-- The kernel's row of 256, read at `(r, c)`, is the vector at `c`. -/
theorem ker_row256_apply (b : FVec Ideal Cert.KernelIdeal.S256 .f32) (r : Fin 1024) (c : Fin 256) :
    Cert.KernelIdeal.Stage.row256 (F := Ideal) b (ix2 r c) = b (ix1 c) := by
  unfold Cert.KernelIdeal.Stage.row256
  rw [broadcastTo_1b_ab_apply, shapeCast_a_1a_apply]

theorem row256_eq (b : FVec Ideal Cert.KernelIdeal.S256 .f32) :
    Cert.ReferenceIdeal.Stage.row256 (F := Ideal) b = Cert.KernelIdeal.Stage.row256 (F := Ideal) b := by
  funext j
  obtain ⟨r, c, rfl⟩ : ∃ r c, j = ix2 r c := ⟨j 0, j 1, eq_ix2 j⟩
  rw [ref_row256_apply, ker_row256_apply]

theorem ref_row128_apply (b : FVec Ideal Cert.KernelIdeal.S128 .f32) (r : Fin 1024) (c : Fin 128) :
    Cert.ReferenceIdeal.Stage.row128 (F := Ideal) b (ix2 r c) = b (ix1 c) := by
  unfold Cert.ReferenceIdeal.Stage.row128
  rw [broadcastInDim_oneRow_apply, bcastVecRow_apply]

theorem ker_row128_apply (b : FVec Ideal Cert.KernelIdeal.S128 .f32) (r : Fin 1024) (c : Fin 128) :
    Cert.KernelIdeal.Stage.row128 (F := Ideal) b (ix2 r c) = b (ix1 c) := by
  unfold Cert.KernelIdeal.Stage.row128
  rw [broadcastTo_1b_ab_apply, shapeCast_a_1a_apply]

theorem row128_eq (b : FVec Ideal Cert.KernelIdeal.S128 .f32) :
    Cert.ReferenceIdeal.Stage.row128 (F := Ideal) b = Cert.KernelIdeal.Stage.row128 (F := Ideal) b := by
  funext j
  obtain ⟨r, c, rfl⟩ : ∃ r c, j = ix2 r c := ⟨j 0, j 1, eq_ix2 j⟩
  rw [ref_row128_apply, ker_row128_apply]

/-! ## Rectifiers -/

/-- The zero scalar broadcast by the host is the kernel's zero splat, so the two rectifiers are one function. -/
theorem relu256_eq (h : FVec Ideal Cert.KernelIdeal.S1024x256 .f32) :
    Cert.ReferenceIdeal.Stage.relu256 (F := Ideal) h = Cert.KernelIdeal.Stage.relu256 (F := Ideal) h := by
  unfold Cert.ReferenceIdeal.Stage.relu256 Cert.KernelIdeal.Stage.relu256
  rw [broadcastInDim_constant]

theorem relu128_eq (h : FVec Ideal Cert.KernelIdeal.S1024x128 .f32) :
    Cert.ReferenceIdeal.Stage.relu128 (F := Ideal) h = Cert.KernelIdeal.Stage.relu128 (F := Ideal) h := by
  unfold Cert.ReferenceIdeal.Stage.relu128 Cert.KernelIdeal.Stage.relu128
  rw [broadcastInDim_constant]

/-! ## The variance's divisor and its guard -/

/-- The word `0x44800000` denotes the real `1024`: sign clear, exponent `137 = 127 + 10`, fraction zero. -/
theorem ofBits_1024 : Ideal.ofBits .f32 0x44800000#32 = ((1024 : ℝ) : EReal) := by
  simp [Ideal.ofBits, Ideal.ieee, -EReal.coe_mul]; norm_num

/-- The guarded divisor `1024 − 0` is `1024`: the integer zero converts to the real zero. -/
theorem varDen_apply (j : Cert.ReferenceIdeal.S_.Idx) :
    Cert.ReferenceIdeal.Stage.varDen (F := Ideal) j = Ideal.ofBits .f32 0x44800000#32 := by
  show Ideal.ofBits .f32 0x44800000#32 - (Scalar.sitofp .f32 0#32 : Ideal .f32) = _
  rw [sitofp_zero, sub_zero]

/-- The divisor is positive, so the guard's bit is set. -/
theorem guard_bit (j : Cert.ReferenceIdeal.S_.Idx) :
    cmpf .ogt (Cert.ReferenceIdeal.Stage.varDen (F := Ideal)) (constant Cert.ReferenceIdeal.S_ .f32 0x00000000#32) j = 1#1 := by
  show Ideal.cmp .ogt (Cert.ReferenceIdeal.Stage.varDen (F := Ideal) j) (Ideal.ofBits .f32 0x00000000#32) = 1#1
  rw [varDen_apply, ofBits_1024, Ideal.ofBits_zero_f32]
  have h : (0 : EReal) < ((1024 : ℝ) : EReal) := by exact_mod_cast (by norm_num : (0 : ℝ) < 1024)
  simp [Ideal.cmp, h]

/-! ## Batch normalisation over 256 columns -/

/-- The reference's means laid along every row — the column sums cast to a row, divided there by `1024`, and
    broadcast down — are the kernel's row of means broadcast down. -/
theorem meanRows256_eq (h : FVec Ideal Cert.KernelIdeal.S1024x256 .f32) :
    broadcastInDim Cert.ReferenceIdeal.S1024x256 ![0, 1] Cert.ReferenceIdeal.Facts₀.bcast_S1x256_S1024x256_0_1
        (Host.divf (broadcastInDim Cert.ReferenceIdeal.S1x256 ![1] Cert.ReferenceIdeal.Facts₀.bcast_S256_S1x256_1
            (Cert.ReferenceIdeal.Stage.colsum256 (F := Ideal) h))
          (broadcastInDim Cert.ReferenceIdeal.S1x256 ![] Cert.ReferenceIdeal.Facts₀.bcast_S_S1x256
            (constant Cert.ReferenceIdeal.S_ .f32 0x44800000#32)))
      = broadcastTo Cert.KernelIdeal.S1024x256 (Cert.KernelIdeal.Stage.mean256 (F := Ideal) h)
          Cert.KernelIdeal.Facts₀.broadcasts_S1x256_S1024x256 := by
  funext j
  obtain ⟨r, c, rfl⟩ : ∃ r c, j = ix2 r c := ⟨j 0, j 1, eq_ix2 j⟩
  rw [broadcastInDim_oneRow_apply, broadcastTo_1b_ab_apply]
  unfold Cert.KernelIdeal.Stage.mean256
  rw [hostDivf_apply, divf_apply, bcastVecRow_apply, shapeCast_a_1a_apply, broadcastInDim_scalar_apply,
    colsum256_host_eq_lane]
  rfl

/-- The same means where the reference divides the vector of column sums first and lays the quotients along the rows. -/
theorem meanRows256_eq' (h : FVec Ideal Cert.KernelIdeal.S1024x256 .f32) :
    Cert.ReferenceIdeal.Stage.row256 (F := Ideal)
        (Host.divf (Cert.ReferenceIdeal.Stage.colsum256 (F := Ideal) h)
          (broadcastInDim Cert.ReferenceIdeal.S256 ![] Cert.ReferenceIdeal.Facts₀.bcast_S_S256
            (constant Cert.ReferenceIdeal.S_ .f32 0x44800000#32)))
      = broadcastTo Cert.KernelIdeal.S1024x256 (Cert.KernelIdeal.Stage.mean256 (F := Ideal) h)
          Cert.KernelIdeal.Facts₀.broadcasts_S1x256_S1024x256 := by
  funext j
  obtain ⟨r, c, rfl⟩ : ∃ r c, j = ix2 r c := ⟨j 0, j 1, eq_ix2 j⟩
  rw [ref_row256_apply, broadcastTo_1b_ab_apply]
  unfold Cert.KernelIdeal.Stage.mean256
  rw [hostDivf_apply, divf_apply, shapeCast_a_1a_apply, broadcastInDim_scalar_apply, colsum256_host_eq_lane]
  rfl

/-- The reference's variance of a column: its guard holds, so it is the kernel's sum of centred squares of that column
    divided by `1024`; the branch of the failed guard is never read. -/
theorem var256_apply (h : FVec Ideal Cert.KernelIdeal.S1024x256 .f32) (c : Fin 256) :
    Cert.ReferenceIdeal.Stage.var256 (F := Ideal) h (ix1 c)
      = Ideal.div (Cert.KernelIdeal.Stage.ssq256 (F := Ideal) h (Cert.KernelIdeal.Stage.mean256 h) (ix1 c))
          (Ideal.ofBits .f32 0x44800000#32) := by
  unfold Cert.ReferenceIdeal.Stage.var256 Cert.KernelIdeal.Stage.ssq256
  rw [meanRows256_eq, colsum256_host_eq_lane, select_apply, broadcastInDim_scalar_apply, guard_bit, select_one,
    hostDivf_apply, broadcastInDim_scalar_apply, varDen_apply]

/-- The scale factor laid along every row: the reference takes the reciprocal square root of the vector of variances
    plus `ε` and lays it along the rows; the kernel casts the centred square sums to a row, divides by `1024`, adds
    `ε`, takes the reciprocal square root there and broadcasts the row down. Column by column it is one value. -/
theorem scaleRows256_eq (h : FVec Ideal Cert.KernelIdeal.S1024x256 .f32) :
    Cert.ReferenceIdeal.Stage.row256 (F := Ideal)
        (Host.rsqrt (addf (Cert.ReferenceIdeal.Stage.var256 (F := Ideal) h)
          (broadcastInDim Cert.ReferenceIdeal.S256 ![] Cert.ReferenceIdeal.Facts₀.bcast_S_S256
            (constant Cert.ReferenceIdeal.S_ .f32 0x3727C5AC#32))))
      = broadcastTo Cert.KernelIdeal.S1024x256
          (rsqrt (addf
            (divf (shapeCast Cert.KernelIdeal.S1x256
                (Cert.KernelIdeal.Stage.ssq256 (F := Ideal) h (Cert.KernelIdeal.Stage.mean256 h))
                Cert.KernelIdeal.Facts₀.shapeCasts_S256_S1x256)
              (broadcast Cert.KernelIdeal.S1x256 (Scalar.ofBits .f32 0x44800000#32)))
            (broadcast Cert.KernelIdeal.S1x256 (Scalar.ofBits .f32 0x3727C5AC#32))))
          Cert.KernelIdeal.Facts₀.broadcasts_S1x256_S1024x256 := by
  funext j
  obtain ⟨r, c, rfl⟩ : ∃ r c, j = ix2 r c := ⟨j 0, j 1, eq_ix2 j⟩
  rw [ref_row256_apply, broadcastTo_1b_ab_apply]
  show Ideal.rsqrt (Cert.ReferenceIdeal.Stage.var256 (F := Ideal) h (ix1 c) + Ideal.ofBits .f32 0x3727C5AC#32)
    = Ideal.rsqrt (Ideal.div
        (shapeCast Cert.KernelIdeal.S1x256
          (Cert.KernelIdeal.Stage.ssq256 (F := Ideal) h (Cert.KernelIdeal.Stage.mean256 h))
          Cert.KernelIdeal.Facts₀.shapeCasts_S256_S1x256 (ix2 (0 : Fin 1) c))
        (Ideal.ofBits .f32 0x44800000#32) + Ideal.ofBits .f32 0x3727C5AC#32)
  rw [var256_apply, shapeCast_a_1a_apply]

/-! ## Batch normalisation over 128 columns -/

/-- The reference's means laid along every row — the column sums cast to a row, divided there by `1024`, and
    broadcast down — are the kernel's row of means broadcast down. -/
theorem meanRows128_eq (h : FVec Ideal Cert.KernelIdeal.S1024x128 .f32) :
    broadcastInDim Cert.ReferenceIdeal.S1024x128 ![0, 1] Cert.ReferenceIdeal.Facts₀.bcast_S1x128_S1024x128_0_1
        (Host.divf (broadcastInDim Cert.ReferenceIdeal.S1x128 ![1] Cert.ReferenceIdeal.Facts₀.bcast_S128_S1x128_1
            (Cert.ReferenceIdeal.Stage.colsum128 (F := Ideal) h))
          (broadcastInDim Cert.ReferenceIdeal.S1x128 ![] Cert.ReferenceIdeal.Facts₀.bcast_S_S1x128
            (constant Cert.ReferenceIdeal.S_ .f32 0x44800000#32)))
      = broadcastTo Cert.KernelIdeal.S1024x128 (Cert.KernelIdeal.Stage.mean128 (F := Ideal) h)
          Cert.KernelIdeal.Facts₀.broadcasts_S1x128_S1024x128 := by
  funext j
  obtain ⟨r, c, rfl⟩ : ∃ r c, j = ix2 r c := ⟨j 0, j 1, eq_ix2 j⟩
  rw [broadcastInDim_oneRow_apply, broadcastTo_1b_ab_apply]
  unfold Cert.KernelIdeal.Stage.mean128
  rw [hostDivf_apply, divf_apply, bcastVecRow_apply, shapeCast_a_1a_apply, broadcastInDim_scalar_apply,
    colsum128_host_eq_lane]
  rfl

/-- The same means where the reference divides the vector of column sums first and lays the quotients along the rows. -/
theorem meanRows128_eq' (h : FVec Ideal Cert.KernelIdeal.S1024x128 .f32) :
    Cert.ReferenceIdeal.Stage.row128 (F := Ideal)
        (Host.divf (Cert.ReferenceIdeal.Stage.colsum128 (F := Ideal) h)
          (broadcastInDim Cert.ReferenceIdeal.S128 ![] Cert.ReferenceIdeal.Facts₀.bcast_S_S128
            (constant Cert.ReferenceIdeal.S_ .f32 0x44800000#32)))
      = broadcastTo Cert.KernelIdeal.S1024x128 (Cert.KernelIdeal.Stage.mean128 (F := Ideal) h)
          Cert.KernelIdeal.Facts₀.broadcasts_S1x128_S1024x128 := by
  funext j
  obtain ⟨r, c, rfl⟩ : ∃ r c, j = ix2 r c := ⟨j 0, j 1, eq_ix2 j⟩
  rw [ref_row128_apply, broadcastTo_1b_ab_apply]
  unfold Cert.KernelIdeal.Stage.mean128
  rw [hostDivf_apply, divf_apply, shapeCast_a_1a_apply, broadcastInDim_scalar_apply, colsum128_host_eq_lane]
  rfl

/-- The reference's variance of a column: its guard holds, so it is the kernel's sum of centred squares of that column
    divided by `1024`; the branch of the failed guard is never read. -/
theorem var128_apply (h : FVec Ideal Cert.KernelIdeal.S1024x128 .f32) (c : Fin 128) :
    Cert.ReferenceIdeal.Stage.var128 (F := Ideal) h (ix1 c)
      = Ideal.div (Cert.KernelIdeal.Stage.ssq128 (F := Ideal) h (Cert.KernelIdeal.Stage.mean128 h) (ix1 c))
          (Ideal.ofBits .f32 0x44800000#32) := by
  unfold Cert.ReferenceIdeal.Stage.var128 Cert.KernelIdeal.Stage.ssq128
  rw [meanRows128_eq, colsum128_host_eq_lane, select_apply, broadcastInDim_scalar_apply, guard_bit, select_one,
    hostDivf_apply, broadcastInDim_scalar_apply, varDen_apply]

/-- The scale factor laid along every row: the reference takes the reciprocal square root of the vector of variances
    plus `ε` and lays it along the rows; the kernel casts the centred square sums to a row, divides by `1024`, adds
    `ε`, takes the reciprocal square root there and broadcasts the row down. Column by column it is one value. -/
theorem scaleRows128_eq (h : FVec Ideal Cert.KernelIdeal.S1024x128 .f32) :
    Cert.ReferenceIdeal.Stage.row128 (F := Ideal)
        (Host.rsqrt (addf (Cert.ReferenceIdeal.Stage.var128 (F := Ideal) h)
          (broadcastInDim Cert.ReferenceIdeal.S128 ![] Cert.ReferenceIdeal.Facts₀.bcast_S_S128
            (constant Cert.ReferenceIdeal.S_ .f32 0x3727C5AC#32))))
      = broadcastTo Cert.KernelIdeal.S1024x128
          (rsqrt (addf
            (divf (shapeCast Cert.KernelIdeal.S1x128
                (Cert.KernelIdeal.Stage.ssq128 (F := Ideal) h (Cert.KernelIdeal.Stage.mean128 h))
                Cert.KernelIdeal.Facts₀.shapeCasts_S128_S1x128)
              (broadcast Cert.KernelIdeal.S1x128 (Scalar.ofBits .f32 0x44800000#32)))
            (broadcast Cert.KernelIdeal.S1x128 (Scalar.ofBits .f32 0x3727C5AC#32))))
          Cert.KernelIdeal.Facts₀.broadcasts_S1x128_S1024x128 := by
  funext j
  obtain ⟨r, c, rfl⟩ : ∃ r c, j = ix2 r c := ⟨j 0, j 1, eq_ix2 j⟩
  rw [ref_row128_apply, broadcastTo_1b_ab_apply]
  show Ideal.rsqrt (Cert.ReferenceIdeal.Stage.var128 (F := Ideal) h (ix1 c) + Ideal.ofBits .f32 0x3727C5AC#32)
    = Ideal.rsqrt (Ideal.div
        (shapeCast Cert.KernelIdeal.S1x128
          (Cert.KernelIdeal.Stage.ssq128 (F := Ideal) h (Cert.KernelIdeal.Stage.mean128 h))
          Cert.KernelIdeal.Facts₀.shapeCasts_S128_S1x128 (ix2 (0 : Fin 1) c))
        (Ideal.ofBits .f32 0x44800000#32) + Ideal.ofBits .f32 0x3727C5AC#32)
  rw [var128_apply, shapeCast_a_1a_apply]

theorem mlp1_eq (a : FVec Ideal Cert.KernelIdeal.S1024x128 .f32) (W1 : FVec Ideal Cert.KernelIdeal.S128x256 .f32)
    (b1 : FVec Ideal Cert.KernelIdeal.S256 .f32) (W2 : FVec Ideal Cert.KernelIdeal.S256x256 .f32)
    (b2 : FVec Ideal Cert.KernelIdeal.S256 .f32) :
    Cert.ReferenceIdeal.Stage.mlp1 (F := Ideal) a W1 b1 W2 b2 = Cert.KernelIdeal.Stage.mlp1 (F := Ideal) a W1 b1 W2 b2 := by
  unfold Cert.ReferenceIdeal.Stage.mlp1 Cert.KernelIdeal.Stage.mlp1
  rw [matmul_truncf_eq_dotGeneral, matmul_truncf_eq_dotGeneral, relu256_eq, relu256_eq, row256_eq, row256_eq,
    dot_128_256_eq, dot_256_256_eq]

theorem mlp2_eq (a : FVec Ideal Cert.KernelIdeal.S1024x256 .f32) (W1 : FVec Ideal Cert.KernelIdeal.S256x256 .f32)
    (b1 : FVec Ideal Cert.KernelIdeal.S256 .f32) (W2 : FVec Ideal Cert.KernelIdeal.S256x128 .f32)
    (b2 : FVec Ideal Cert.KernelIdeal.S128 .f32) :
    Cert.ReferenceIdeal.Stage.mlp2 (F := Ideal) a W1 b1 W2 b2 = Cert.KernelIdeal.Stage.mlp2 (F := Ideal) a W1 b1 W2 b2 := by
  unfold Cert.ReferenceIdeal.Stage.mlp2 Cert.KernelIdeal.Stage.mlp2
  rw [matmul_truncf_eq_dotGeneral, matmul_truncf_eq_dotGeneral, relu128_eq, relu256_eq, row128_eq, row256_eq,
    dot_256_256_eq, dot_256_128_eq]

theorem bn256_eq (h : FVec Ideal Cert.KernelIdeal.S1024x256 .f32) (g be : FVec Ideal Cert.KernelIdeal.S256 .f32) :
    Cert.ReferenceIdeal.Stage.bn256 (F := Ideal) h g be = Cert.KernelIdeal.Stage.bn256 (F := Ideal) h g be := by
  unfold Cert.ReferenceIdeal.Stage.bn256 Cert.KernelIdeal.Stage.bn256 Cert.KernelIdeal.Stage.bnFrom256
  rw [meanRows256_eq', scaleRows256_eq, row256_eq g, row256_eq be]

theorem bn128_eq (h : FVec Ideal Cert.KernelIdeal.S1024x128 .f32) (g be : FVec Ideal Cert.KernelIdeal.S128 .f32) :
    Cert.ReferenceIdeal.Stage.bn128 (F := Ideal) h g be = Cert.KernelIdeal.Stage.bn128 (F := Ideal) h g be := by
  unfold Cert.ReferenceIdeal.Stage.bn128 Cert.KernelIdeal.Stage.bn128 Cert.KernelIdeal.Stage.bnFrom128
  rw [meanRows128_eq', scaleRows128_eq, row128_eq g, row128_eq be]

theorem colsum128_eq (h : FVec Ideal Cert.KernelIdeal.S1024x128 .f32) :
    Cert.ReferenceIdeal.Stage.colsum128 (F := Ideal) h = Cert.KernelIdeal.Stage.colsum128 (F := Ideal) h := by
  exact colsum128_host_eq_lane h

end Cert.StageEq

end
-- ==== Proof.Bridge.lean ====
/-
  The two programs compute one function: stage by stage the reference's aggregation, perceptron, batch
  normalisation and readout are the kernel's, so their compositions agree on every thirteen arguments.
-/
import proofs.«115119_j47768626266491_1_alg».proof.Proof.AggLaw
import proofs.«115119_j47768626266491_1_alg».proof.Proof.StageEq

noncomputable section

namespace Cert.Bridge

open Idealize.ShloMosaic

theorem comp_eq (x : FVec Ideal Cert.KernelIdeal.S1024x128 .f32) (W1a : FVec Ideal Cert.KernelIdeal.S128x256 .f32)
    (b1a : FVec Ideal Cert.KernelIdeal.S256 .f32) (W1b : FVec Ideal Cert.KernelIdeal.S256x256 .f32)
    (b1b g1 be1 : FVec Ideal Cert.KernelIdeal.S256 .f32) (W2a : FVec Ideal Cert.KernelIdeal.S256x256 .f32)
    (b2a : FVec Ideal Cert.KernelIdeal.S256 .f32) (W2b : FVec Ideal Cert.KernelIdeal.S256x128 .f32)
    (b2b g2 be2 : FVec Ideal Cert.KernelIdeal.S128 .f32) :
    Cert.ReferenceIdeal.Stage.refComp (F := Ideal) x W1a b1a W1b b1b g1 be1 W2a b2a W2b b2b g2 be2
      = Cert.KernelIdeal.Stage.kerComp (F := Ideal) x W1a b1a W1b b1b g1 be1 W2a b2a W2b b2b g2 be2 := by
  unfold Cert.ReferenceIdeal.Stage.refComp Cert.KernelIdeal.Stage.kerComp
  rw [Cert.AggLaw.agg128_eq, Cert.StageEq.mlp1_eq, Cert.StageEq.bn256_eq, Cert.AggLaw.agg256_eq, Cert.StageEq.mlp2_eq,
    Cert.StageEq.bn128_eq, Cert.StageEq.colsum128_eq]

end Cert.Bridge

end
-- ==== Proof.lean ====
/-
  Two layers of graph convolution over the complete edge list (every row sends to every row but row 0), each a
  two-layer perceptron followed by a rectifier and a batch normalisation, then a sum over the rows. The reference
  gathers the source row of each of the 1047552 edges and adds it into the edge's destination row; the kernel adds to
  every row but row 0 the sum of all rows. Over the extended reals the two are one function: each destination row
  `j ≥ 1` receives exactly one edge from every source row, and row 0 receives none, while `0 · t = 0` and
  `1 · t = t` for every `t`; the matrix products, the column sums, the means and the biased variances are the same
  sums on both sides, the same literals divided and added. No input need be finite for this.
  The kernel's frames and its run are the generated ones, read at the body's stored value; the reference's run is the
  fold of its host operations, read stage by stage.
-/
import proofs.«115119_j47768626266491_1_alg».proof.Defs
import proofs.«115119_j47768626266491_1_alg».proof.Proof.Gen.Kernel
import proofs.«115119_j47768626266491_1_alg».proof.Proof.Gen.Kernel.Skeleton
import proofs.«115119_j47768626266491_1_alg».proof.Proof.Gen.Kernel.Launch
import proofs.«115119_j47768626266491_1_alg».proof.Proof.Gen.Kernel.Points
import proofs.«115119_j47768626266491_1_alg».proof.Proof.Gen.Kernel.Frame
import proofs.«115119_j47768626266491_1_alg».proof.Proof.Gen.KernelIdeal
import proofs.«115119_j47768626266491_1_alg».proof.Proof.Gen.KernelIdeal.Skeleton
import proofs.«115119_j47768626266491_1_alg».proof.Proof.Gen.KernelIdeal.Launch
import proofs.«115119_j47768626266491_1_alg».proof.Proof.Gen.KernelIdeal.Points
import proofs.«115119_j47768626266491_1_alg».proof.Proof.Gen.KernelIdeal.Frame
import proofs.«115119_j47768626266491_1_alg».proof.Proof.Gen.KernelIdeal.Value
import proofs.«115119_j47768626266491_1_alg».proof.Proof.Gen.ReferenceIdeal
import proofs.«115119_j47768626266491_1_alg».proof.Proof.Gen.Pre_finite_inputs
import proofs.«115119_j47768626266491_1_alg».proof.Proof.KerValue
import proofs.«115119_j47768626266491_1_alg».proof.Proof.RefRun
import proofs.«115119_j47768626266491_1_alg».proof.Proof.Bridge
import Idealize.ShloMosaic.Adequacy
import Idealize.ShloMosaic.Init

noncomputable section

namespace Cert.Proof

open Idealize.ShloMosaic Idealize.SL.Sem

/-- The kernel as printed runs, faults nowhere and leaves its arguments as they were. -/
theorem frame_k : Cert.frame_Kernel := fun m ρ _ => Cert.Kernel.Gen.frame m ρ

/-- So does its idealisation. -/
theorem frame_ki : Cert.frame_KernelIdeal := fun m ρ _ => Cert.KernelIdeal.Gen.frame m ρ

/-- So does the reference: its run with the result dropped. -/
theorem frame_ri : Cert.frame_ReferenceIdeal := fun m ρ _ =>
  (θ_run Cert.ReferenceIdeal.defs _ _).mono (fun _ h c => (h c).2) (Cert.ReferenceIdeal.HandRun.run (F := Ideal) m ρ)

/-- The ideal pass rewrote nothing. -/
theorem preserves : Cert.preserves_Kernel_KernelIdeal := trivial

/-- From memories that agree on the thirteen arguments the kernel's result is the body's stored value of them and
    the reference's the composition of its stages of them: one function. -/
theorem algebraic : Cert.algebraic_KernelIdeal_ReferenceIdeal := by
  intro m ρ m' ρ' _ hagree
  refine ⟨_, Cert.KernelIdeal.KerValue.run (F := Ideal) m ρ, ?_⟩
  refine (θ_run Cert.ReferenceIdeal.defs _ _).mono (fun _ h c => ⟨(h c).1.trans ?_, (h c).2⟩)
    (Cert.ReferenceIdeal.HandRun.run (F := Ideal) m' ρ')
  obtain ⟨e0, e1, e2, e3, e4, e5, e6, e7, e8, e9, e10, e11, e12⟩ := hagree c
  rw [e0, e1, e2, e3, e4, e5, e6, e7, e8, e9, e10, e11, e12]
  exact Cert.Bridge.comp_eq _ _ _ _ _ _ _ _ _ _ _ _ _

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
